-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x1024 : Shape := ⟨2, ![4096, 1024]⟩
abbrev S4096 : Shape := ⟨1, ![4096]⟩
abbrev S1024 : Shape := ⟨1, ![1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S4096x1024 .f32) (main_arg5 : FVec F S4096 .f32) (main_arg6 : FVec F S4096 .f32) (main_arg7 : FVec F S1024 .f32) (main_arg8 : FVec F S1024 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S4096x512 .f32) (main_arg1 : FVec F S4096x1024 .f32) (main_arg2 : FVec F S4096x1024 .f32) (main_arg3 : FVec F S4096x512 .f32) (main_arg4 : FVec F S4096x1024 .f32) (main_arg5 : FVec F S4096 .f32) (main_arg6 : FVec F S4096 .f32) (main_arg7 : FVec F S1024 .f32) (main_arg8 : FVec F S1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_v13 main_v16
-- ==== Kernel.lean ====
abbrev S4096x512 : Shape := ⟨2, ![4096, 512]⟩
abbrev S4096x1024 : Shape := ⟨2, ![4096, 1024]⟩
abbrev S4096 : Shape := ⟨1, ![4096]⟩
abbrev S1024 : Shape := ⟨1, ![1024]⟩
abbrev S1x4096 : Shape := ⟨2, ![1, 4096]⟩
abbrev S1x1024 : Shape := ⟨2, ![1, 1024]⟩
abbrev S128x512 : Shape := ⟨2, ![128, 512]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩

abbrev nBuf : Space → Nat
  | .hbm => 17
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S4096x512, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S1024, .f32⟩
  | .hbm, ⟨8, _⟩ => ⟨S1024, .f32⟩
  | .hbm, ⟨9, _⟩ => ⟨S4096x512, .bf16⟩
  | .hbm, ⟨10, _⟩ => ⟨S4096x1024, .bf16⟩
  | .hbm, ⟨11, _⟩ => ⟨S1x4096, .f32⟩
  | .hbm, ⟨12, _⟩ => ⟨S1x4096, .f32⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S4096x512, .bf16⟩
  | .local _ .vmem, ⟨7, _⟩ => ⟨S4096x1024, .bf16⟩
  | .local _ .vmem, ⟨8, _⟩ => ⟨S1x4096, .f32⟩
  | .local _ .vmem, ⟨9, _⟩ => ⟨S1x4096, .f32⟩
  | .local _ .vmem, ⟨10, _⟩ => ⟨S1x1024, .f32⟩
  | .local _ .vmem, ⟨11, _⟩ => ⟨S1x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S128x512_S128x512_0_0 : ∀ a, (![0, 0] : Fin 2 → Nat) a + S128x512.size a ≤ S128x512.size a
  h_S128x512 : 0 < S128x512.numel
  inb_S128x1024_S128x1024_0_0 : ∀ a, (![0, 0] : Fin 2 → Nat) a + S128x1024.size a ≤ S128x1024.size a
  h_S128x1024 : 0 < S128x1024.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  reduces_S128x1024_S128 : S128x1024.Reduces [1] S128
  shapeCasts_S128_S128x1 : S128.ShapeCasts S128x1
  broadcasts_S128x1_S128x1024 : S128x1.Broadcasts S128x1024
  slices_S1x4096_o0_0_S1x1024 : S1x4096.Slices ![0, 0] S1x1024
  broadcasts_S1x1024_S128x1024 : S1x1024.Broadcasts S128x1024
  slices_S1x4096_o0_1024_S1x1024 : S1x4096.Slices ![0, 1024] S1x1024
  slices_S1x4096_o0_2048_S1x1024 : S1x4096.Slices ![0, 2048] S1x1024
  slices_S1x4096_o0_3072_S1x1024 : S1x4096.Slices ![0, 3072] S1x1024
  dot_S128x512_S4096x512_S128x4096_1_1_0_0_n_n_wf : DotDims.WF S128x512 S4096x512 S128x4096 [1] [1] [0] [0] [] []
  dot_S128x1024_S4096x1024_S128x4096_1_1_0_0_n_n_wf : DotDims.WF S128x1024 S4096x1024 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S4096x512.size a
  hwx0_0 : ∀ i : grid0.Coords, EltTy.bits .f32 = 32 ∨ (Rect.block (s := S4096x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .bf16 = 32 ∨ (Rect.block (s := S4096x512) S4096x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S4096x1024.size a
  hwx0_9 : ∀ i : grid0.Coords, EltTy.bits .f32 = 32 ∨ (Rect.block (s := S4096x1024) S128x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S4096x1024.size a
  hwx0_10 : ∀ i : grid0.Coords, EltTy.bits .f32 = 32 ∨ (Rect.block (s := S4096x1024) S128x1024.size (cc0_transform_10 i) (hinb0_10 i)).WholeWords (EltTy.packing .f32)

variable [Facts₀]

def dot_S128x512_S4096x512_S128x4096_1_1_0_0_n_n : DotDims S128x512 S4096x512 S128x4096 where
  lhsContracting := [1]
  rhsContracting := [1]
  lhsNonContracting := [0]
  rhsNonContracting := [0]
  lhsBatch := []
  rhsBatch := []
  wf := dot_S128x512_S4096x512_S128x4096_1_1_0_0_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S128x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S128x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x1024 : Shape := ⟨2, ![4096, 1024]⟩
abbrev S4096 : Shape := ⟨1, ![4096]⟩
abbrev S1024 : Shape := ⟨1, ![1024]⟩
abbrev S512x4096 : Shape := ⟨2, ![512, 4096]⟩
abbrev S4096x4096 : Shape := ⟨2, ![4096, 4096]⟩
abbrev S1024x4096 : Shape := ⟨2, ![1024, 4096]⟩
abbrev S4096x4x1024 : Shape := ⟨3, ![4096, 4, 1024]⟩
abbrev S_ : Shape := ⟨0, ![]⟩
abbrev S4096x4 : Shape := ⟨2, ![4096, 4]⟩
abbrev S4096x4x1 : Shape := ⟨3, ![4096, 4, 1]⟩
abbrev S1x4096 : Shape := ⟨2, ![1, 4096]⟩
abbrev S4096x1 : Shape := ⟨2, ![4096, 1]⟩
abbrev S1x1024 : Shape := ⟨2, ![1, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S4096x512, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S1024, .f32⟩
  | .hbm, ⟨8, _⟩ => ⟨S1024, .f32⟩
  | .hbm, ⟨9, _⟩ => ⟨S512x4096, .f32⟩
  | .hbm, ⟨10, _⟩ => ⟨S4096x4096, .f32⟩
  | .hbm, ⟨11, _⟩ => ⟨S1024x4096, .f32⟩
  | .hbm, ⟨12, _⟩ => ⟨S4096x4096, .f32⟩
  | .hbm, ⟨13, _⟩ => ⟨S4096x4096, .f32⟩
  | .hbm, ⟨14, _⟩ => ⟨S4096x4x1024, .f32⟩
  | .hbm, ⟨15, _⟩ => ⟨S_, .f32⟩
  | .hbm, ⟨16, _⟩ => ⟨S4096x4, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S4096x4x1024, .f32⟩
  | .hbm, ⟨22, _⟩ => ⟨S4096x4x1024, .f32⟩
  | .hbm, ⟨23, _⟩ => ⟨S4096x4x1024, .f32⟩
  | .hbm, ⟨24, _⟩ => ⟨S_, .f32⟩
  | .hbm, ⟨25, _⟩ => ⟨S4096x4, .f32⟩
  | .hbm, ⟨26, _⟩ => ⟨S4096x4x1, .f32⟩
  | .hbm, ⟨27, _⟩ => ⟨S_, .f32⟩
  | .hbm, ⟨28, _⟩ => ⟨S4096x4x1, .f32⟩
  | .hbm, ⟨29, _⟩ => ⟨S4096x4x1, .f32⟩
  | .hbm, ⟨30, _⟩ => ⟨S4096x4x1024, .f32⟩
  | .hbm, ⟨31, _⟩ => ⟨S4096x4x1024, .f32⟩
  | .hbm, ⟨32, _⟩ => ⟨S_, .f32⟩
  | .hbm, ⟨33, _⟩ => ⟨S4096x4x1, .f32⟩
  | .hbm, ⟨34, _⟩ => ⟨S4096x4x1, .f32⟩
  | .hbm, ⟨35, _⟩ => ⟨S4096x4x1, .f32⟩
  | .hbm, ⟨36, _⟩ => ⟨S4096x4x1024, .f32⟩
  | .hbm, ⟨37, _⟩ => ⟨S4096x4x1024, .f32⟩
  | .hbm, ⟨38, _⟩ => ⟨S4096x4096, .f32⟩
  | .hbm, ⟨39, _⟩ => ⟨S1x4096, .f32⟩
  | .hbm, ⟨40, _⟩ => ⟨S4096x4096, .f32⟩
  | .hbm, ⟨41, _⟩ => ⟨S4096x4096, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S4096x1, .f32⟩
  | .hbm, ⟨101, _⟩ => ⟨S4096x1024, .f32⟩
  | .hbm, ⟨102, _⟩ => ⟨S4096x1024, .f32⟩
  | .hbm, ⟨103, _⟩ => ⟨S1x1024, .f32⟩
  | .hbm, ⟨104, _⟩ => ⟨S4096x1024, .f32⟩
  | .hbm, ⟨105, _⟩ => ⟨S4096x1024, .f32⟩
  | .hbm, ⟨106, _⟩ => ⟨S1x1024, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]

class Facts₀ : Prop where
  transposes_S4096x512_S512x4096_1_0 : S4096x512.Transposes [1, 0] S512x4096
  transposes_S4096x1024_S1024x4096_1_0 : S4096x1024.Transposes [1, 0] S1024x4096
  shapeCasts_S4096x4096_S4096x4x1024 : S4096x4096.ShapeCasts S4096x4x1024
  reducesTo_S4096x4x1024_S4096x4_d2 : S4096x4x1024.ReducesTo [2] S4096x4
  h_S_ : 0 < S_.numel
  bcast_S4096x4_S4096x4x1_0_1 : S4096x4.BroadcastsInDim S4096x4x1 (![0, 1] : Fin 2 → Fin S4096x4x1.rank)
  bcast_S_S4096x4x1 : S_.BroadcastsInDim S4096x4x1 (![] : Fin 0 → Fin S4096x4x1.rank)
  bcast_S4096x4x1_S4096x4x1024_0_1_2 : S4096x4x1.BroadcastsInDim S4096x4x1024 (![0, 1, 2] : Fin 3 → Fin S4096x4x1024.rank)
  shapeCasts_S4096x4x1024_S4096x4096 : S4096x4x1024.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  reducesTo_S4096x1024_S4096_d1 : S4096x1024.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x512_S512x4096_S4096x4096_1_0_0_1_n_n_wf : DotDims.WF S4096x512 S512x4096 S4096x4096 [1] [0] [0] [1] [] []
  dot_S4096x1024_S1024x4096_S4096x4096_1_0_0_1_n_n_wf : DotDims.WF S4096x1024 S1024x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.CellSpec.lean ====
/-
  One row of a layer-normalised LSTM cell, over the extended reals.

  A row of the batch sees an input row `X` (512 entries), a hidden row `H` and a cell row `C` (1024 entries each), the
  two weight matrices `Wi` (4096 × 512) and `Wh` (4096 × 1024), a scale and a shift per pre-activation column
  (`lw`, `lb`: 4096 entries) and a scale and a shift for the new cell row (`cw`, `cb`: 1024 entries).

  The 4096 pre-activations `lin o = ∑ k, X k · Wi o k + ∑ k, H k · Wh o k` fall into four gates of 1024 columns; column
  `1024 g + q` is gate `g`'s entry `q`. Each gate is normalised by itself: its mean is subtracted, the result is
  multiplied by the reciprocal square root of (the mean of the squared differences plus ε), then scaled and shifted
  column by column. Gates 0, 1, 2 pass through the logistic function (gate 1 after adding one), gate 3 through tanh; the
  new cell entry is `f · C + i · g`, and the new hidden entry is the third gate times tanh of the new cell row,
  normalised the same way and scaled and shifted by `cw`, `cb`.

  The three float constants (1024, ε and 1) are kept as the words both programs print; only `1` is ever evaluated, to
  join the logistic function with its expansion `1 / (1 + e^(-x))`.
-/
import Idealize.ShloMosaic.PureOps.Ideal.Laws
import Idealize.ShloMosaic.Lib.ValueIdx

noncomputable section

open scoped BigOperators
open Idealize.ShloMosaic

namespace Cert.CellSpec

/-- The divisor of both means: the word of `1024.0`. -/
abbrev cN : EReal := Ideal.ofBits .f32 0x44800000#32
/-- The ε added to both variances: the word both programs print for it. -/
abbrev cEps : EReal := Ideal.ofBits .f32 0x3727C5AC#32
/-- The word of `1.0`: the forget gate's bias, and the numerator and the summand of the expanded logistic. -/
abbrev cOne : EReal := Ideal.ofBits .f32 0x3F800000#32

/-- The word of `1.0` denotes the real one. -/
theorem cOne_eq : cOne = 1 := by
  simp [cOne, Ideal.ofBits, Ideal.ieee, -EReal.coe_mul]; norm_num

/-- The logistic function is its expansion with the printed ones: `1 / (1 + e^(-x))`. -/
theorem logistic_eq (x : EReal) : Ideal.logistic x = Ideal.div cOne (cOne + Ideal.exp (-x)) := by
  rw [cOne_eq]; rfl

/-! ## Normalising 1024 entries -/

/-- The mean of 1024 entries: their sum over the word of 1024. -/
def mean (f : Fin 1024 → EReal) : EReal := Ideal.div (∑ q, f q) cN

/-- An entry less the mean. -/
def centred (f : Fin 1024 → EReal) (q : Fin 1024) : EReal := f q - mean f

/-- The mean of the squared differences from the mean. -/
def var (f : Fin 1024 → EReal) : EReal := mean fun q => centred f q * centred f q

/-- An entry less the mean, times the reciprocal square root of (the variance plus ε). -/
def normed (f : Fin 1024 → EReal) (q : Fin 1024) : EReal := centred f q * Ideal.rsqrt (var f + cEps)

/-- Column `1024 g + q`: entry `q` of gate `g`. -/
def col (g : Fin 4) (q : Fin 1024) : Fin 4096 := ⟨q.val + 1024 * g.val, by have := g.isLt; have := q.isLt; omega⟩

theorem col_val (g : Fin 4) (q : Fin 1024) : (col g q).val = q.val + 1024 * g.val := rfl

/-! ## One row of the cell -/

section row

variable (X : Fin 512 → EReal) (H C : Fin 1024 → EReal) (Wi : Fin 4096 → Fin 512 → EReal) (Wh : Fin 4096 → Fin 1024 → EReal)
  (lw lb : Fin 4096 → EReal) (cw cb : Fin 1024 → EReal)

/-- Pre-activation column `o`: the input row against row `o` of `Wi` plus the hidden row against row `o` of `Wh`. -/
def lin (o : Fin 4096) : EReal := (∑ k, X k * Wi o k) + ∑ k, H k * Wh o k

/-- Gate `g`'s entry `q`: the gate's 1024 pre-activations normalised, scaled and shifted. -/
def gate (g : Fin 4) (q : Fin 1024) : EReal :=
  normed (fun q' => lin X H Wi Wh (col g q')) q * lw (col g q) + lb (col g q)

/-- The new cell entry: forget gate (biased by one) times the old cell entry plus input gate times candidate. -/
def cNew (q : Fin 1024) : EReal :=
  Ideal.logistic (gate X H Wi Wh lw lb 1 q + cOne) * C q
    + Ideal.logistic (gate X H Wi Wh lw lb 0 q) * Ideal.tanh (gate X H Wi Wh lw lb 3 q)

/-- The new hidden entry: output gate times tanh of the normalised, scaled and shifted new cell row. -/
def hNew (q : Fin 1024) : EReal :=
  Ideal.logistic (gate X H Wi Wh lw lb 2 q)
    * Ideal.tanh (normed (cNew X H C Wi Wh lw lb) q * cw q + cb q)

end row

end Cert.CellSpec

end
-- ==== Proof.CellOps.lean ====
/-
  The vector operations of the kernel body, read at an index over the extended reals.

  A column vector `[a]` laid out as `[a, 1]`, a column `[a, 1]` repeated along a second axis, a row sum of an
  `[a, b]` block, and a matrix product of an `[M, K]` block with an `[N, K]` block that contracts the second axis of
  both (row `p` of the left against row `o` of the right), accumulated into zero. With these, the three forms in which the
  body spells a row's statistics: the mean column, the mean column repeated over the row, and the variance column, each
  of a `[128, 1024]` block, are `CellSpec.mean`, `CellSpec.var` of that row.
-/
import Idealize.ShloMosaic.PureOps.Ideal.Laws
import Idealize.ShloMosaic.Lib.ValueIdx
import Idealize.ShloMosaic.Lib.ValueLayout
import Idealize.ShloMosaic.Lib.Pipeline.Value
import proofs.«123228_j14980845928861_1_alg».proof.Proof.CellSpec

noncomputable section

open scoped BigOperators
open Idealize.ShloMosaic Idealize.ShloMosaic.ValueIdx Cert.CellSpec

namespace Cert.CellOps

variable {α : Type}

/-! ## Two layouts of a column -/

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row sum -/

/-- The sum of an `[a, b]` block over its second axis, read at row `p`, is the sum of that row's entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ q : Fin b, v (ix2 p q) := by
  refine (Ideal.multiReduction_add_single v 0x00000000#32 h hφ hacc (ix1 p)).trans ?_
  refine Finset.sum_congr rfl fun q _ => congrArg v (funext fun c => Fin.ext ?_)
  match c with
  | ⟨0, _⟩ => rfl
  | ⟨1, _⟩ => rfl

/-! ## A product of rows with rows -/

/-- For a record `d` over `[M, K] × [N, K] → [M, N]` that contracts the second axis of both operands — its left index
    at `(i, k)` is `(i 0, k)` and its right index is `(i 1, k)` (`hl0`, `hl1`, `hr0`, `hr1`) — the product accumulated
    into the zero splat, read at `(p, o)`, is `∑ k, A (p, k) · B (o, k)`. -/
theorem matmul_rows_zero_apply {M K N : ℕ} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (i 1).val)
    (hr1 : ∀ (i : (⟨2, ![M, N]⟩ : Shape).Idx) (q : d.contr.Idx), (d.rhsIdx i q 1).val = (q ⟨0, by omega⟩).val)
    (A : FVec Ideal ⟨2, ![M, K]⟩ φ₁) (B : FVec Ideal ⟨2, ![N, K]⟩ φ₂) (p : Fin M) (o : Fin N) :
    FloatOps.matmul d prec A B (constant (F := Ideal) ⟨2, ![M, N]⟩ .f32 0x00000000#32) (ix2 p o)
      = ∑ k : Fin K, A (ix2 p k) * B (ix2 o k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 o k := funext fun a => Fin.ext (by
    match a with
    | ⟨0, _⟩ => exact hr0 _ _
    | ⟨1, _⟩ => exact (hr1 _ _).trans hk)
  rw [el, er]

/-! ## A row's statistics, as the body spells them over a `[128, 1024]` block -/

section stats

variable (S : FVec Ideal ⟨2, ![128, 1024]⟩ .f32)
  (hred : (⟨2, ![128, 1024]⟩ : Shape).Reduces [1] ⟨1, ![128]⟩) (hφ : FKind.Formats .f32)
  (hacc : (0x00000000#32 : BitVec 32) = 0x00000000#32)
  (hcast : (⟨1, ![128]⟩ : Shape).ShapeCasts ⟨2, ![128, 1]⟩)
  (hbc : (⟨2, ![128, 1]⟩ : Shape).Broadcasts ⟨2, ![128, 1024]⟩)

/-- The mean column: the row sums laid out as a column, over the splat of the word of 1024. -/
def meanCol : FVec Ideal ⟨2, ![128, 1]⟩ .f32 :=
  divf (shapeCast ⟨2, ![128, 1]⟩ (multiReduction (F := Ideal) .add [1] ⟨1, ![128]⟩ S 0x00000000#32 hred hφ hacc) hcast)
    (broadcast ⟨2, ![128, 1]⟩ (Scalar.ofBits (F := Ideal) .f32 0x44800000#32))

theorem meanCol_apply (p : Fin 128) (u : Fin 1) :
    meanCol S hred hφ hacc hcast (ix2 p u) = mean fun q => S (ix2 p q) := by
  unfold meanCol
  rw [divf_apply, shapeCast_a_a1_apply, rowSum_apply]
  rfl

/-- A row entry less the row's mean, the mean column repeated along the row. -/
theorem sub_meanCol_apply (p : Fin 128) (q : Fin 1024) :
    subf S (broadcastTo ⟨2, ![128, 1024]⟩ (meanCol S hred hφ hacc hcast) hbc) (ix2 p q)
      = centred (fun q' => S (ix2 p q')) q := by
  rw [subf_apply, broadcastTo_a1_ab_apply, meanCol_apply]
  rfl

/-- The variance column: the row sums of the squared differences, as a column, over the splat of the word of 1024. -/
theorem varCol_apply (p : Fin 128) (u : Fin 1) :
    meanCol (mulf (subf S (broadcastTo ⟨2, ![128, 1024]⟩ (meanCol S hred hφ hacc hcast) hbc))
        (subf S (broadcastTo ⟨2, ![128, 1024]⟩ (meanCol S hred hφ hacc hcast) hbc))) hred hφ hacc hcast (ix2 p u)
      = var fun q => S (ix2 p q) := by
  rw [meanCol_apply]
  unfold var
  refine congrArg mean (funext fun q => ?_)
  rw [mulf_apply, sub_meanCol_apply]

end stats

end Cert.CellOps

end
-- ==== Proof.KernelRow.lean ====
/-
  The kernel body's values at an index of the block, over the extended reals.

  The body works on a block of 128 batch rows. Its pre-activations are a `[128, 4096]` block, row `p` of the input
  block against every row of the first weight matrix plus row `p` of the hidden block against every row of the second.
  The four gates are its four column slices of width 1024; each is normalised along the row, scaled and shifted by the
  matching slices of the two `[1, 4096]` rows, and the cell and hidden values follow entry by entry. Read at `(p, q)`,
  the value stored to the cell output is `CellSpec.cNew` of row `p` of the loaded blocks at `q`, and the value stored to
  the hidden output is `CellSpec.hNew` of the same.
-/
import proofs.«123228_j14980845928861_1_alg».proof.Proof.Gen.KernelIdeal.Skeleton
import proofs.«123228_j14980845928861_1_alg».proof.Proof.CellOps

noncomputable section

open scoped BigOperators
open Cert.KernelIdeal Cert.KernelIdeal.Gen Idealize.ShloMosaic Idealize.ShloMosaic.ValueIdx Cert.CellSpec Cert.CellOps

namespace Cert.KernelRow

variable {α : Type}

/-! ## The pointwise functions at an index -/

theorem rsqrt_apply {s : Shape} (v : FVec Ideal s .f32) (i : s.Idx) : rsqrt v i = Ideal.rsqrt (v i) := rfl
theorem tanh_apply {s : Shape} (v : FVec Ideal s .f32) (i : s.Idx) : tanh v i = Ideal.tanh (v i) := rfl
theorem logistic_apply {s : Shape} (v : FVec Ideal s .f32) (i : s.Idx) : logistic v i = Ideal.logistic (v i) := rfl

/-! ## A gate's columns -/

/-- The slice of width 1024 at offset `1024 g` along the second axis reads, at `(a, q)`, column `1024 g + q`. -/
theorem gateSlice_apply {n0 : ℕ} (g : Fin 4) (off : ℕ) (hoff : off = 1024 * g.val) (X : (⟨2, ![n0, 4096]⟩ : Shape).Idx → α)
    (h : (⟨2, ![n0, 4096]⟩ : Shape).Slices ![0, off] ⟨2, ![n0, 1024]⟩) (a : Fin n0) (q : Fin 1024) :
    extractStridedSlice ⟨2, ![n0, 1024]⟩ ![0, off] X h (ix2 a q) = X (ix2 a (col g q)) :=
  slice2_axis1_apply off X h a q (col g q) (by rw [col_val, hoff]; omega)

/-! ## The two products' index maps -/

theorem lhsI_0 (i : S128x4096.Idx) (q : dot_S128x512_S4096x512_S128x4096_1_1_0_0_n_n.contr.Idx) :
    (dot_S128x512_S4096x512_S128x4096_1_1_0_0_n_n.lhsIdx i q 0).val = (i 0).val := by
  unfold DotDims.lhsIdx
  rw [dif_neg (show ¬(0 : Fin S128x512.rank) ∈ dot_S128x512_S4096x512_S128x4096_1_1_0_0_n_n.lhsBatch by decide), dif_pos (show (0 : Fin S128x512.rank) ∈ dot_S128x512_S4096x512_S128x4096_1_1_0_0_n_n.lhsNonContracting by decide)]
  rfl
theorem lhsI_1 (i : S128x4096.Idx) (q : dot_S128x512_S4096x512_S128x4096_1_1_0_0_n_n.contr.Idx) :
    (dot_S128x512_S4096x512_S128x4096_1_1_0_0_n_n.lhsIdx i q 1).val = (q ⟨0, by decide⟩).val :=
  dot_S128x512_S4096x512_S128x4096_1_1_0_0_n_n.lhsIdx_val_of_single rfl i q
theorem rhsI_0 (i : S128x4096.Idx) (q : dot_S128x512_S4096x512_S128x4096_1_1_0_0_n_n.contr.Idx) :
    (dot_S128x512_S4096x512_S128x4096_1_1_0_0_n_n.rhsIdx i q 0).val = (i 1).val := by
  unfold DotDims.rhsIdx
  rw [dif_neg (show ¬(0 : Fin S4096x512.rank) ∈ dot_S128x512_S4096x512_S128x4096_1_1_0_0_n_n.rhsBatch by decide), dif_pos (show (0 : Fin S4096x512.rank) ∈ dot_S128x512_S4096x512_S128x4096_1_1_0_0_n_n.rhsNonContracting by decide)]
  rfl
theorem rhsI_1 (i : S128x4096.Idx) (q : dot_S128x512_S4096x512_S128x4096_1_1_0_0_n_n.contr.Idx) :
    (dot_S128x512_S4096x512_S128x4096_1_1_0_0_n_n.rhsIdx i q 1).val = (q ⟨0, by decide⟩).val :=
  dot_S128x512_S4096x512_S128x4096_1_1_0_0_n_n.rhsIdx_val_of_single rfl i q

theorem lhsH_0 (i : S128x4096.Idx) (q : dot_S128x1024_S4096x1024_S128x4096_1_1_0_0_n_n.contr.Idx) :
    (dot_S128x1024_S4096x1024_S128x4096_1_1_0_0_n_n.lhsIdx i q 0).val = (i 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem lhsH_1 (i : S128x4096.Idx) (q : dot_S128x1024_S4096x1024_S128x4096_1_1_0_0_n_n.contr.Idx) :
    (dot_S128x1024_S4096x1024_S128x4096_1_1_0_0_n_n.lhsIdx i q 1).val = (q ⟨0, by decide⟩).val :=
  dot_S128x1024_S4096x1024_S128x4096_1_1_0_0_n_n.lhsIdx_val_of_single rfl i q
theorem rhsH_0 (i : S128x4096.Idx) (q : dot_S128x1024_S4096x1024_S128x4096_1_1_0_0_n_n.contr.Idx) :
    (dot_S128x1024_S4096x1024_S128x4096_1_1_0_0_n_n.rhsIdx i q 0).val = (i 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem rhsH_1 (i : S128x4096.Idx) (q : dot_S128x1024_S4096x1024_S128x4096_1_1_0_0_n_n.contr.Idx) :
    (dot_S128x1024_S4096x1024_S128x4096_1_1_0_0_n_n.rhsIdx i q 1).val = (q ⟨0, by decide⟩).val :=
  dot_S128x1024_S4096x1024_S128x4096_1_1_0_0_n_n.rhsIdx_val_of_single rfl i q

/-! ## The pre-activations and their four gates -/

section lin

variable (v0 : FVec Ideal S128x512 .f32) (v2 : FVec Ideal S128x1024 .f32) (v4 : FVec Ideal S4096x512 .bf16) (v6 : FVec Ideal S4096x1024 .bf16)

/-- Pre-activation `(p, o)`: row `p` of the input block against row `o` of the first weights, plus row `p` of the hidden
    block against row `o` of the second. (The narrowing of the two blocks is the identity on the extended reals.) -/
theorem pay2_apply (p : Fin 128) (o : Fin 4096) :
    k0_pay2 (F := Ideal) v0 v2 v4 v6 (ix2 p o)
      = (∑ k : Fin 512, v0 (ix2 p k) * v4 (ix2 o k)) + ∑ k : Fin 1024, v2 (ix2 p k) * v6 (ix2 o k) := by
  unfold k0_pay2
  simp only [matmul]
  rw [addf_apply,
    matmul_rows_zero_apply dot_S128x512_S4096x512_S128x4096_1_1_0_0_n_n none rfl rfl lhsI_0 lhsI_1 rhsI_0 rhsI_1,
    matmul_rows_zero_apply dot_S128x1024_S4096x1024_S128x4096_1_1_0_0_n_n none rfl rfl lhsH_0 lhsH_1 rhsH_0 rhsH_1]
  simp only [truncf_apply, shapeCast_self]

theorem pay7_apply (p : Fin 128) (q : Fin 1024) :
    k0_pay7 (F := Ideal) v0 v2 v4 v6 (ix2 p q) = k0_pay2 (F := Ideal) v0 v2 v4 v6 (ix2 p (col 0 q)) := by
  unfold k0_pay7; exact gateSlice_apply 0 0 rfl _ _ p q
theorem pay8_apply (p : Fin 128) (q : Fin 1024) :
    k0_pay8 (F := Ideal) v0 v2 v4 v6 (ix2 p q) = k0_pay2 (F := Ideal) v0 v2 v4 v6 (ix2 p (col 1 q)) := by
  unfold k0_pay8; exact gateSlice_apply 1 1024 rfl _ _ p q
theorem pay9_apply (p : Fin 128) (q : Fin 1024) :
    k0_pay9 (F := Ideal) v0 v2 v4 v6 (ix2 p q) = k0_pay2 (F := Ideal) v0 v2 v4 v6 (ix2 p (col 2 q)) := by
  unfold k0_pay9; exact gateSlice_apply 2 2048 rfl _ _ p q
theorem pay10_apply (p : Fin 128) (q : Fin 1024) :
    k0_pay10 (F := Ideal) v0 v2 v4 v6 (ix2 p q) = k0_pay2 (F := Ideal) v0 v2 v4 v6 (ix2 p (col 3 q)) := by
  unfold k0_pay10; exact gateSlice_apply 3 3072 rfl _ _ p q

/-- The first gate's mean column. -/
theorem pay11_apply (p : Fin 128) (u : Fin 1) :
    k0_pay11 (F := Ideal) v0 v2 v4 v6 (ix2 p u) = mean fun q => k0_pay7 (F := Ideal) v0 v2 v4 v6 (ix2 p q) := by
  unfold k0_pay11
  exact meanCol_apply (k0_pay7 (F := Ideal) v0 v2 v4 v6) reduces_S128x1024_S128 (.inl rfl) rfl shapeCasts_S128_S128x1 p u

/-- The first gate's variance column. -/
theorem pay12_apply (p : Fin 128) (u : Fin 1) :
    k0_pay12 (F := Ideal) v0 v2 v4 v6 (ix2 p u) = var fun q => k0_pay7 (F := Ideal) v0 v2 v4 v6 (ix2 p q) := by
  unfold k0_pay12
  exact varCol_apply (k0_pay7 (F := Ideal) v0 v2 v4 v6) reduces_S128x1024_S128 (.inl rfl) rfl shapeCasts_S128_S128x1
    broadcasts_S128x1_S128x1024 p u

end lin

/-! ## The gates, normalised, scaled and shifted -/

section gates

variable (v13 v15 : FVec Ideal S1x4096 .f32)

/-- The first gate before its logistic: its mean and variance columns are handed in. -/
theorem pay13_apply (v20 : FVec Ideal S128x1024 .f32) (v27 v34 : FVec Ideal S128x1 .f32) (p : Fin 128) (q : Fin 1024) :
    k0_pay13 (F := Ideal) v13 v15 v20 v27 v34 (ix2 p q)
      = (v20 (ix2 p q) - v27 (ix2 p 0)) * Ideal.rsqrt (v34 (ix2 p 0) + cEps) * v13 (ix2 0 (col 0 q)) + v15 (ix2 0 (col 0 q)) := by
  unfold k0_pay13
  simp only [addf_apply, mulf_apply, subf_apply, rsqrt_apply, broadcastTo_a1_ab_apply, broadcastTo_1b_ab_apply,
    gateSlice_apply 0 0 rfl, broadcast_apply]
  rfl

/-- A `[1, 4096]` row's gate slice repeated over the block's rows reads, at `(p, q)`, the row's column `1024 g + q`. -/
theorem rowGate_apply (g : Fin 4) (off : ℕ) (hoff : off = 1024 * g.val) (v : FVec Ideal S1x4096 .f32)
    (hs : S1x4096.Slices ![0, off] S1x1024) (hb : S1x1024.Broadcasts S128x1024) (p : Fin 128) (q : Fin 1024) :
    broadcastTo S128x1024 (extractStridedSlice S1x1024 ![0, off] v hs) hb (ix2 p q) = v (ix2 0 (col g q)) :=
  (broadcastTo_1b_ab_apply _ hb p q).trans (gateSlice_apply g off hoff v hs 0 q)

/-- A block less its mean column, times the reciprocal square root of (its variance column plus ε), both columns repeated
    along the rows: at `(p, q)`, row `p` normalised, at `q`. -/
theorem normedBlock_apply (S : FVec Ideal S128x1024 .f32) (p : Fin 128) (q : Fin 1024) :
    mulf (subf S (broadcastTo S128x1024 (meanCol S reduces_S128x1024_S128 (.inl rfl) rfl shapeCasts_S128_S128x1) broadcasts_S128x1_S128x1024))
      (broadcastTo S128x1024 (rsqrt (addf
        (meanCol (mulf (subf S (broadcastTo S128x1024 (meanCol S reduces_S128x1024_S128 (.inl rfl) rfl shapeCasts_S128_S128x1) broadcasts_S128x1_S128x1024))
            (subf S (broadcastTo S128x1024 (meanCol S reduces_S128x1024_S128 (.inl rfl) rfl shapeCasts_S128_S128x1) broadcasts_S128x1_S128x1024)))
          reduces_S128x1024_S128 (.inl rfl) rfl shapeCasts_S128_S128x1)
        (broadcast S128x1 (Scalar.ofBits (F := Ideal) .f32 0x3727C5AC#32)))) broadcasts_S128x1_S128x1024) (ix2 p q)
      = normed (fun q' => S (ix2 p q')) q := by
  rw [mulf_apply, sub_meanCol_apply, broadcastTo_a1_ab_apply, rsqrt_apply, addf_apply, varCol_apply, broadcast_apply]
  rfl

/-- The second gate before its bias and logistic. -/
theorem pay14_apply (v21 : FVec Ideal S128x1024 .f32) (p : Fin 128) (q : Fin 1024) :
    k0_pay14 (F := Ideal) v13 v15 v21 (ix2 p q)
      = normed (fun q' => v21 (ix2 p q')) q * v13 (ix2 0 (col 1 q)) + v15 (ix2 0 (col 1 q)) := by
  unfold k0_pay14
  exact congrArg₂ (· + ·) (congrArg₂ (· * ·) (normedBlock_apply v21 p q) (rowGate_apply 1 1024 rfl v13 _ _ p q))
    (rowGate_apply 1 1024 rfl v15 _ _ p q)

/-- The third gate's variance column and its entries less the mean. -/
theorem pay16_apply (v22 : FVec Ideal S128x1024 .f32) (p : Fin 128) (u : Fin 1) :
    k0_pay16 (F := Ideal) v22 (ix2 p u) = var fun q => v22 (ix2 p q) := by
  unfold k0_pay16
  exact varCol_apply v22 reduces_S128x1024_S128 (.inl rfl) rfl shapeCasts_S128_S128x1 broadcasts_S128x1_S128x1024 p u

theorem pay17_apply (v22 : FVec Ideal S128x1024 .f32) (p : Fin 128) (q : Fin 1024) :
    k0_pay17 (F := Ideal) v22 (ix2 p q) = centred (fun q' => v22 (ix2 p q')) q := by
  unfold k0_pay17
  exact sub_meanCol_apply v22 reduces_S128x1024_S128 (.inl rfl) rfl shapeCasts_S128_S128x1 broadcasts_S128x1_S128x1024 p q

/-- The third gate: its variance column and its centred entries are handed in. -/
theorem pay18_apply (v82 : FVec Ideal S128x1 .f32) (v84 : FVec Ideal S128x1024 .f32) (p : Fin 128) (q : Fin 1024) :
    k0_pay18 (F := Ideal) v13 v15 v82 v84 (ix2 p q)
      = Ideal.logistic (v84 (ix2 p q) * Ideal.rsqrt (v82 (ix2 p 0) + cEps) * v13 (ix2 0 (col 2 q)) + v15 (ix2 0 (col 2 q))) := by
  unfold k0_pay18
  exact congrArg Ideal.logistic (congrArg₂ (· + ·) (congrArg₂ (· * ·)
    (congrArg₂ (· * ·) rfl ((broadcastTo_a1_ab_apply _ _ p q).trans rfl)) (rowGate_apply 2 2048 rfl v13 _ _ p q))
    (rowGate_apply 2 2048 rfl v15 _ _ p q))

/-- The new cell value: the first two gates arrive before their logistic, the fourth is normalised here. -/
theorem pay19_apply (v11 v23 v47 v71 : FVec Ideal S128x1024 .f32) (p : Fin 128) (q : Fin 1024) :
    k0_pay19 (F := Ideal) v11 v13 v15 v23 v47 v71 (ix2 p q)
      = Ideal.logistic (v71 (ix2 p q) + cOne) * v11 (ix2 p q)
        + Ideal.logistic (v47 (ix2 p q))
          * Ideal.tanh (normed (fun q' => v23 (ix2 p q')) q * v13 (ix2 0 (col 3 q)) + v15 (ix2 0 (col 3 q))) := by
  unfold k0_pay19
  exact congrArg₂ (· + ·) rfl (congrArg₂ (· * ·) rfl (congrArg Ideal.tanh (congrArg₂ (· + ·)
    (congrArg₂ (· * ·) (normedBlock_apply v23 p q) (rowGate_apply 3 3072 rfl v13 _ _ p q))
    (rowGate_apply 3 3072 rfl v15 _ _ p q))))

/-- The new cell value's mean column, and its squared entries less the mean. -/
theorem pay20_apply (v11 v23 v47 v71 : FVec Ideal S128x1024 .f32) (p : Fin 128) (u : Fin 1) :
    k0_pay20 (F := Ideal) v11 v13 v15 v23 v47 v71 (ix2 p u)
      = mean fun q => k0_pay19 (F := Ideal) v11 v13 v15 v23 v47 v71 (ix2 p q) := by
  unfold k0_pay20
  exact meanCol_apply (k0_pay19 (F := Ideal) v11 v13 v15 v23 v47 v71) reduces_S128x1024_S128 (.inl rfl) rfl shapeCasts_S128_S128x1 p u

theorem pay21_apply (v11 v23 v47 v71 : FVec Ideal S128x1024 .f32) (p : Fin 128) (q : Fin 1024) :
    k0_pay21 (F := Ideal) v11 v13 v15 v23 v47 v71 (ix2 p q)
      = centred (fun q' => k0_pay19 (F := Ideal) v11 v13 v15 v23 v47 v71 (ix2 p q')) q
        * centred (fun q' => k0_pay19 (F := Ideal) v11 v13 v15 v23 v47 v71 (ix2 p q')) q := by
  unfold k0_pay21
  exact congrArg₂ (· * ·)
    (sub_meanCol_apply (k0_pay19 (F := Ideal) v11 v13 v15 v23 v47 v71) reduces_S128x1024_S128 (.inl rfl) rfl shapeCasts_S128_S128x1 broadcasts_S128x1_S128x1024 p q)
    (sub_meanCol_apply (k0_pay19 (F := Ideal) v11 v13 v15 v23 v47 v71) reduces_S128x1024_S128 (.inl rfl) rfl shapeCasts_S128_S128x1 broadcasts_S128x1_S128x1024 p q)

end gates

/-- The new hidden value: the output gate times tanh of the new cell value, whose mean column and squared differences are
    handed in, normalised, scaled and shifted by the two `[1, 1024]` rows. -/
theorem pay1_apply (v17 v19 : FVec Ideal S1x1024 .f32) (v124 v128 : FVec Ideal S128x1024 .f32) (v132 : FVec Ideal S128x1 .f32)
    (v135 : FVec Ideal S128x1024 .f32) (p : Fin 128) (q : Fin 1024) :
    k0_pay1 (F := Ideal) v17 v19 v124 v128 v132 v135 (ix2 p q)
      = v124 (ix2 p q) * Ideal.tanh ((v128 (ix2 p q) - v132 (ix2 p 0))
          * Ideal.rsqrt (mean (fun q' => v135 (ix2 p q')) + cEps) * v17 (ix2 0 q) + v19 (ix2 0 q)) := by
  unfold k0_pay1
  exact congrArg₂ (· * ·) rfl (congrArg Ideal.tanh (congrArg₂ (· + ·) (congrArg₂ (· * ·)
    (congrArg₂ (· * ·) (congrArg₂ (· - ·) rfl (broadcastTo_a1_ab_apply v132 _ p q))
      ((broadcastTo_a1_ab_apply _ _ p q).trans (congrArg (fun x => Ideal.rsqrt (x + cEps))
        (meanCol_apply v135 reduces_S128x1024_S128 (.inl rfl) rfl shapeCasts_S128_S128x1 p 0))))
    (broadcastTo_1b_ab_apply v17 _ p q)) (broadcastTo_1b_ab_apply v19 _ p q)))

/-! ## The loaded rows pass through unchanged -/

theorem pay3_eq (v : FVec Ideal S1x4096 .f32) : k0_pay3 (F := Ideal) v = v := shapeCast_self v _
theorem pay4_eq (v : FVec Ideal S1x4096 .f32) : k0_pay4 (F := Ideal) v = v := shapeCast_self v _
theorem pay5_eq (v : FVec Ideal S1x1024 .f32) : k0_pay5 (F := Ideal) v = v := shapeCast_self v _
theorem pay6_eq (v : FVec Ideal S1x1024 .f32) : k0_pay6 (F := Ideal) v = v := shapeCast_self v _

/-! ## The two stored values -/

section stored

variable (x0 : FVec Ideal S128x512 .f32) (x1 x2 : FVec Ideal S128x1024 .f32) (x3 : FVec Ideal S4096x512 .bf16)
  (x4 : FVec Ideal S4096x1024 .bf16) (x5 x6 : FVec Ideal S1x4096 .f32) (x7 x8 : FVec Ideal S1x1024 .f32)

/-- The value stored to the cell output, as the body composes it from the loaded blocks. -/
def cellVal : FVec Ideal S128x1024 .f32 :=
  k0_pay19 (F := Ideal) x2 (k0_pay3 x5) (k0_pay4 x6) (k0_pay10 x0 x1 x3 x4)
    (k0_pay13 (k0_pay3 x5) (k0_pay4 x6) (k0_pay7 x0 x1 x3 x4) (k0_pay11 x0 x1 x3 x4) (k0_pay12 x0 x1 x3 x4))
    (k0_pay14 (k0_pay3 x5) (k0_pay4 x6) (k0_pay8 x0 x1 x3 x4))

/-- At `(p, q)` it is the new cell entry `q` of row `p` of the loaded blocks. -/
theorem cellVal_apply (p : Fin 128) (q : Fin 1024) :
    cellVal x0 x1 x2 x3 x4 x5 x6 (ix2 p q)
      = cNew (fun k => x0 (ix2 p k)) (fun k => x1 (ix2 p k)) (fun k => x2 (ix2 p k)) (fun o k => x3 (ix2 o k))
          (fun o k => x4 (ix2 o k)) (fun o => x5 (ix2 0 o)) (fun o => x6 (ix2 0 o)) q := by
  unfold cellVal
  rw [pay19_apply, pay14_apply, pay13_apply, pay11_apply, pay12_apply]
  simp only [pay3_eq, pay4_eq, pay7_apply, pay8_apply, pay10_apply, pay2_apply]
  rfl

/-- The same with the cell value's composition written out, the form in which the hidden value's pieces mention it. -/
theorem cellTerm_apply (p : Fin 128) (q : Fin 1024) :
    k0_pay19 (F := Ideal) x2 (k0_pay3 x5) (k0_pay4 x6) (k0_pay10 x0 x1 x3 x4)
        (k0_pay13 (k0_pay3 x5) (k0_pay4 x6) (k0_pay7 x0 x1 x3 x4) (k0_pay11 x0 x1 x3 x4) (k0_pay12 x0 x1 x3 x4))
        (k0_pay14 (k0_pay3 x5) (k0_pay4 x6) (k0_pay8 x0 x1 x3 x4)) (ix2 p q)
      = cNew (fun k => x0 (ix2 p k)) (fun k => x1 (ix2 p k)) (fun k => x2 (ix2 p k)) (fun o k => x3 (ix2 o k))
          (fun o k => x4 (ix2 o k)) (fun o => x5 (ix2 0 o)) (fun o => x6 (ix2 0 o)) q :=
  cellVal_apply x0 x1 x2 x3 x4 x5 x6 p q

/-- The value stored to the hidden output, as the body composes it from the loaded blocks. -/
def hiddenVal : FVec Ideal S128x1024 .f32 :=
  k0_pay1 (F := Ideal) (k0_pay5 x7) (k0_pay6 x8)
    (k0_pay18 (k0_pay3 x5) (k0_pay4 x6) (k0_pay16 (k0_pay9 x0 x1 x3 x4)) (k0_pay17 (k0_pay9 x0 x1 x3 x4)))
    (k0_pay19 x2 (k0_pay3 x5) (k0_pay4 x6) (k0_pay10 x0 x1 x3 x4)
      (k0_pay13 (k0_pay3 x5) (k0_pay4 x6) (k0_pay7 x0 x1 x3 x4) (k0_pay11 x0 x1 x3 x4) (k0_pay12 x0 x1 x3 x4))
      (k0_pay14 (k0_pay3 x5) (k0_pay4 x6) (k0_pay8 x0 x1 x3 x4)))
    (k0_pay20 x2 (k0_pay3 x5) (k0_pay4 x6) (k0_pay10 x0 x1 x3 x4)
      (k0_pay13 (k0_pay3 x5) (k0_pay4 x6) (k0_pay7 x0 x1 x3 x4) (k0_pay11 x0 x1 x3 x4) (k0_pay12 x0 x1 x3 x4))
      (k0_pay14 (k0_pay3 x5) (k0_pay4 x6) (k0_pay8 x0 x1 x3 x4)))
    (k0_pay21 x2 (k0_pay3 x5) (k0_pay4 x6) (k0_pay10 x0 x1 x3 x4)
      (k0_pay13 (k0_pay3 x5) (k0_pay4 x6) (k0_pay7 x0 x1 x3 x4) (k0_pay11 x0 x1 x3 x4) (k0_pay12 x0 x1 x3 x4))
      (k0_pay14 (k0_pay3 x5) (k0_pay4 x6) (k0_pay8 x0 x1 x3 x4)))

/-- At `(p, q)` it is the new hidden entry `q` of row `p` of the loaded blocks. -/
theorem hiddenVal_apply (p : Fin 128) (q : Fin 1024) :
    hiddenVal x0 x1 x2 x3 x4 x5 x6 x7 x8 (ix2 p q)
      = hNew (fun k => x0 (ix2 p k)) (fun k => x1 (ix2 p k)) (fun k => x2 (ix2 p k)) (fun o k => x3 (ix2 o k))
          (fun o k => x4 (ix2 o k)) (fun o => x5 (ix2 0 o)) (fun o => x6 (ix2 0 o))
          (fun k => x7 (ix2 0 k)) (fun k => x8 (ix2 0 k)) q := by
  unfold hiddenVal
  rw [pay1_apply, pay18_apply, pay16_apply, pay17_apply, pay20_apply]
  simp only [pay21_apply, cellTerm_apply]
  simp only [pay5_eq, pay6_eq, pay3_eq, pay4_eq, pay9_apply, pay2_apply]
  rfl

end stored

end Cert.KernelRow

end
-- ==== Proof.CellArrays.lean ====
/-
  The two result arrays of the cell, as functions of the nine argument arrays.

  Batch row `r` of the cell sees row `r` of the input, hidden and cell arrays, both weight matrices whole, and the four
  scale and shift vectors. Entry `(r, q)` of the new cell array is `CellSpec.cNew` of those at `q`, and entry `(r, q)` of
  the new hidden array is `CellSpec.hNew` of those at `q`.
-/
import proofs.«123228_j14980845928861_1_alg».proof.Proof.CellSpec

noncomputable section

open Idealize.ShloMosaic Idealize.ShloMosaic.ValueIdx Cert.CellSpec

namespace Cert.CellArrays

section arrays

variable (a0 : (⟨2, ![4096, 512]⟩ : Shape).Idx → EReal) (a1 a2 : (⟨2, ![4096, 1024]⟩ : Shape).Idx → EReal)
  (a3 : (⟨2, ![4096, 512]⟩ : Shape).Idx → EReal) (a4 : (⟨2, ![4096, 1024]⟩ : Shape).Idx → EReal)
  (a5 a6 : (⟨1, ![4096]⟩ : Shape).Idx → EReal) (a7 a8 : (⟨1, ![1024]⟩ : Shape).Idx → EReal)

/-- The new cell entry of batch row `r` at `q`. -/
def cellAt (r : Fin 4096) (q : Fin 1024) : EReal :=
  cNew (fun k => a0 (ix2 r k)) (fun k => a1 (ix2 r k)) (fun k => a2 (ix2 r k)) (fun o k => a3 (ix2 o k))
    (fun o k => a4 (ix2 o k)) (fun o => a5 (ix1 o)) (fun o => a6 (ix1 o)) q

/-- The new hidden entry of batch row `r` at `q`. -/
def hiddenAt (r : Fin 4096) (q : Fin 1024) : EReal :=
  hNew (fun k => a0 (ix2 r k)) (fun k => a1 (ix2 r k)) (fun k => a2 (ix2 r k)) (fun o k => a3 (ix2 o k))
    (fun o k => a4 (ix2 o k)) (fun o => a5 (ix1 o)) (fun o => a6 (ix1 o)) (fun k => a7 (ix1 k)) (fun k => a8 (ix1 k)) q

/-- The new cell array. -/
def cellArr : (⟨2, ![4096, 1024]⟩ : Shape).Idx → EReal :=
  fun i => cellAt a0 a1 a2 a3 a4 a5 a6 ⟨(i 0).val, (i 0).isLt⟩ ⟨(i 1).val, (i 1).isLt⟩

/-- The new hidden array. -/
def hiddenArr : (⟨2, ![4096, 1024]⟩ : Shape).Idx → EReal :=
  fun i => hiddenAt a0 a1 a2 a3 a4 a5 a6 a7 a8 ⟨(i 0).val, (i 0).isLt⟩ ⟨(i 1).val, (i 1).isLt⟩

theorem cellArr_apply (r : Fin 4096) (q : Fin 1024) :
    cellArr a0 a1 a2 a3 a4 a5 a6 (ix2 r q) = cellAt a0 a1 a2 a3 a4 a5 a6 r q := rfl

theorem hiddenArr_apply (r : Fin 4096) (q : Fin 1024) :
    hiddenArr a0 a1 a2 a3 a4 a5 a6 a7 a8 (ix2 r q) = hiddenAt a0 a1 a2 a3 a4 a5 a6 a7 a8 r q := rfl

end arrays

end Cert.CellArrays

end
-- ==== Proof.KernelArray.lean ====
/-
  From the kernel's blocks to its two result arrays.

  The grid has 32 points; point `t` works on batch rows `128 t … 128 t + 127`. Its input, hidden and cell blocks are
  those rows of the three batch arrays; the two weight matrices and the four scale and shift rows are staged whole (the
  weights after a change of float format, which is the identity on the extended reals, the vectors laid out as one row).
  So what point `t` writes back to the cell output is rows `128 t …` of `CellArrays.cellArr` of the arguments, and to the
  hidden output the same rows of `CellArrays.hiddenArr`; the 32 blocks cover both arrays.
-/
import proofs.«123228_j14980845928861_1_alg».proof.Proof.KernelBlocks
import proofs.«123228_j14980845928861_1_alg».proof.Proof.KernelRow
import proofs.«123228_j14980845928861_1_alg».proof.Proof.CellArrays
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx Cert.CellSpec Cert.CellArrays Cert.KernelRow

namespace Cert.KernelArray

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-! ## The argument arrays and the blocks, at their literal types -/

abbrev a0 (c : Dev nD) : FVec Ideal S4096x512 .f32 := m ((c : Thread nD τ).loc main_arg0)
abbrev a1 (c : Dev nD) : FVec Ideal S4096x1024 .f32 := m ((c : Thread nD τ).loc main_arg1)
abbrev a2 (c : Dev nD) : FVec Ideal S4096x1024 .f32 := m ((c : Thread nD τ).loc main_arg2)
abbrev a3 (c : Dev nD) : FVec Ideal S4096x512 .f32 := m ((c : Thread nD τ).loc main_arg3)
abbrev a4 (c : Dev nD) : FVec Ideal S4096x1024 .f32 := m ((c : Thread nD τ).loc main_arg4)
abbrev a5 (c : Dev nD) : FVec Ideal S4096 .f32 := m ((c : Thread nD τ).loc main_arg5)
abbrev a6 (c : Dev nD) : FVec Ideal S4096 .f32 := m ((c : Thread nD τ).loc main_arg6)
abbrev a7 (c : Dev nD) : FVec Ideal S1024 .f32 := m ((c : Thread nD τ).loc main_arg7)
abbrev a8 (c : Dev nD) : FVec Ideal S1024 .f32 := m ((c : Thread nD τ).loc main_arg8)

abbrev b0 (c : Dev nD) (t : Fin cfg0.N) : FVec Ideal S128x512 .f32 := iblk m c 0 t
abbrev b1 (c : Dev nD) (t : Fin cfg0.N) : FVec Ideal S128x1024 .f32 := iblk m c 1 t
abbrev b2 (c : Dev nD) (t : Fin cfg0.N) : FVec Ideal S128x1024 .f32 := iblk m c 2 t
abbrev b3 (c : Dev nD) (t : Fin cfg0.N) : FVec Ideal S4096x512 .bf16 := iblk m c 3 t
abbrev b4 (c : Dev nD) (t : Fin cfg0.N) : FVec Ideal S4096x1024 .bf16 := iblk m c 4 t
abbrev b5 (c : Dev nD) (t : Fin cfg0.N) : FVec Ideal S1x4096 .f32 := iblk m c 5 t
abbrev b6 (c : Dev nD) (t : Fin cfg0.N) : FVec Ideal S1x4096 .f32 := iblk m c 6 t
abbrev b7 (c : Dev nD) (t : Fin cfg0.N) : FVec Ideal S1x1024 .f32 := iblk m c 7 t
abbrev b8 (c : Dev nD) (t : Fin cfg0.N) : FVec Ideal S1x1024 .f32 := iblk m c 8 t

/-! ## The index maps over the grid -/

/-- The five windows that move with the grid sit at block `(t, 0)`. -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The six windows staged whole sit at block `(0, 0)`. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Batch row `128 t + p`: row `p` of point `t`'s block. -/
def rowOf (t : Fin cfg0.N) (p : Fin 128) : Fin 4096 :=
  ⟨t.val * 128 + p.val, by have h1 := t.isLt; have hN : cfg0.N = 32 := N_0; have h2 := p.isLt; omega⟩

theorem rowOf_val (t : Fin cfg0.N) (p : Fin 128) : (rowOf t p).val = t.val * 128 + p.val := rfl

/-! ## Each block as entries of its argument array -/

theorem b0_apply (c : Dev nD) (t : Fin cfg0.N) (p : Fin 128) (k : Fin 512) :
    b0 m c t (ix2 p k) = a0 m c (ix2 (rowOf t p) k) := by
  obtain ⟨e0, e1, -⟩ := idx_moving t
  show iblk m c 0 t (ix2 p k) = _
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 128 + 1 * p.val = t.val * 128 + p.val; omega
  | ⟨1, _⟩ => show win0_0.index t (1 : Fin 2) * 512 + 1 * k.val = k.val; omega

theorem b1_apply (c : Dev nD) (t : Fin cfg0.N) (p : Fin 128) (k : Fin 1024) :
    b1 m c t (ix2 p k) = a1 m c (ix2 (rowOf t p) k) := by
  obtain ⟨-, -, e0, e1, -⟩ := idx_moving t
  show iblk m c 1 t (ix2 p k) = _
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 128 + 1 * p.val = t.val * 128 + p.val; omega
  | ⟨1, _⟩ => show win0_1.index t (1 : Fin 2) * 1024 + 1 * k.val = k.val; omega

theorem b2_apply (c : Dev nD) (t : Fin cfg0.N) (p : Fin 128) (k : Fin 1024) :
    b2 m c t (ix2 p k) = a2 m c (ix2 (rowOf t p) k) := by
  obtain ⟨-, -, -, -, e0, e1, -⟩ := idx_moving t
  show iblk m c 2 t (ix2 p k) = _
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 128 + 1 * p.val = t.val * 128 + p.val; omega
  | ⟨1, _⟩ => show win0_2.index t (1 : Fin 2) * 1024 + 1 * k.val = k.val; omega

/-! ## The arrays the host wrote before the region -/

/-- The first weight matrix as staged: the argument after the change of float format. -/
theorem V_wih (c : Dev nD) : (V m c main_v0 : FVec Ideal S4096x512 .bf16)
    = (truncf .bf16 (a3 m c) bitsLt_bf16_f32 : FVec Ideal S4096x512 .bf16) := by
  dsimp only [Gen.V, Gen.hostOps0]; after_results

/-- The second weight matrix as staged. -/
theorem V_whh (c : Dev nD) : (V m c main_v1 : FVec Ideal S4096x1024 .bf16)
    = (truncf .bf16 (a4 m c) bitsLt_bf16_f32 : FVec Ideal S4096x1024 .bf16) := by
  dsimp only [Gen.V, Gen.hostOps0]; after_results

/-- The gates' scale as staged: the argument vector laid out as one row. -/
theorem V_lw (c : Dev nD) : (V m c main_v2 : S1x4096.Idx → Elt Ideal .f32)
    = shapeCast S1x4096 (m ((c : Thread nD τ).loc main_arg5)) shapeCasts_S4096_S1x4096 := by
  dsimp only [Gen.V, Gen.hostOps0]; after_results; rfl

/-- The gates' shift as staged. -/
theorem V_lb (c : Dev nD) : (V m c main_v3 : S1x4096.Idx → Elt Ideal .f32)
    = shapeCast S1x4096 (m ((c : Thread nD τ).loc main_arg6)) shapeCasts_S4096_S1x4096 := by
  dsimp only [Gen.V, Gen.hostOps0]; after_results; rfl

/-- The cell row's scale as staged. -/
theorem V_cw (c : Dev nD) : (V m c main_v4 : S1x1024.Idx → Elt Ideal .f32)
    = shapeCast S1x1024 (m ((c : Thread nD τ).loc main_arg7)) shapeCasts_S1024_S1x1024 := by
  dsimp only [Gen.V, Gen.hostOps0]; after_results; rfl

/-- The cell row's shift as staged. -/
theorem V_cb (c : Dev nD) : (V m c main_v5 : S1x1024.Idx → Elt Ideal .f32)
    = shapeCast S1x1024 (m ((c : Thread nD τ).loc main_arg8)) shapeCasts_S1024_S1x1024 := by
  dsimp only [Gen.V, Gen.hostOps0]; after_results; rfl

theorem b3_apply (c : Dev nD) (t : Fin cfg0.N) (o : Fin 4096) (k : Fin 512) :
    b3 m c t (ix2 o k) = a3 m c (ix2 o k) := by
  obtain ⟨e0, e1, -⟩ := idx_whole t
  show iblk m c 3 t (ix2 o k) = _
  unfold iblk
  rw [View.read_apply]
  show V m c main_v0 _ = _
  rw [V_wih, truncf_apply]
  refine congrArg (m ((c : Thread nD τ).loc main_arg3)) (funext fun a => Fin.ext ?_)
  match a with
  | ⟨0, _⟩ => show win0_3.index t (0 : Fin 2) * 4096 + 1 * o.val = o.val; omega
  | ⟨1, _⟩ => show win0_3.index t (1 : Fin 2) * 512 + 1 * k.val = k.val; omega

theorem b4_apply (c : Dev nD) (t : Fin cfg0.N) (o : Fin 4096) (k : Fin 1024) :
    b4 m c t (ix2 o k) = a4 m c (ix2 o k) := by
  obtain ⟨-, -, e0, e1, -⟩ := idx_whole t
  show iblk m c 4 t (ix2 o k) = _
  unfold iblk
  rw [View.read_apply]
  show V m c main_v1 _ = _
  rw [V_whh, truncf_apply]
  refine congrArg (m ((c : Thread nD τ).loc main_arg4)) (funext fun a => Fin.ext ?_)
  match a with
  | ⟨0, _⟩ => show win0_4.index t (0 : Fin 2) * 4096 + 1 * o.val = o.val; omega
  | ⟨1, _⟩ => show win0_4.index t (1 : Fin 2) * 1024 + 1 * k.val = k.val; omega

theorem b5_apply (c : Dev nD) (t : Fin cfg0.N) (o : Fin 4096) :
    b5 m c t (ix2 (0 : Fin 1) o) = a5 m c (ix1 o) := by
  obtain ⟨-, -, -, -, e0, e1, -⟩ := idx_whole t
  show iblk m c 5 t (ix2 (0 : Fin 1) o) = _
  unfold iblk
  rw [View.read_apply]
  show V m c main_v2 _ = _
  rw [V_lw]
  refine Eq.trans (congrArg _ (funext fun a => Fin.ext ?_)) (shapeCast_a_1a_apply (m ((c : Thread nD τ).loc main_arg5)) _ (0 : Fin 1) o)
  match a with
  | ⟨0, _⟩ => show win0_5.index t (0 : Fin 2) * 1 + 1 * 0 = 0; omega
  | ⟨1, _⟩ => show win0_5.index t (1 : Fin 2) * 4096 + 1 * o.val = o.val; omega

theorem b6_apply (c : Dev nD) (t : Fin cfg0.N) (o : Fin 4096) :
    b6 m c t (ix2 (0 : Fin 1) o) = a6 m c (ix1 o) := by
  obtain ⟨-, -, -, -, -, -, e0, e1, -⟩ := idx_whole t
  show iblk m c 6 t (ix2 (0 : Fin 1) o) = _
  unfold iblk
  rw [View.read_apply]
  show V m c main_v3 _ = _
  rw [V_lb]
  refine Eq.trans (congrArg _ (funext fun a => Fin.ext ?_)) (shapeCast_a_1a_apply (m ((c : Thread nD τ).loc main_arg6)) _ (0 : Fin 1) o)
  match a with
  | ⟨0, _⟩ => show win0_6.index t (0 : Fin 2) * 1 + 1 * 0 = 0; omega
  | ⟨1, _⟩ => show win0_6.index t (1 : Fin 2) * 4096 + 1 * o.val = o.val; omega

theorem b7_apply (c : Dev nD) (t : Fin cfg0.N) (k : Fin 1024) :
    b7 m c t (ix2 (0 : Fin 1) k) = a7 m c (ix1 k) := by
  obtain ⟨-, -, -, -, -, -, -, -, e0, e1, -⟩ := idx_whole t
  show iblk m c 7 t (ix2 (0 : Fin 1) k) = _
  unfold iblk
  rw [View.read_apply]
  show V m c main_v4 _ = _
  rw [V_cw]
  refine Eq.trans (congrArg _ (funext fun a => Fin.ext ?_)) (shapeCast_a_1a_apply (m ((c : Thread nD τ).loc main_arg7)) _ (0 : Fin 1) k)
  match a with
  | ⟨0, _⟩ => show win0_7.index t (0 : Fin 2) * 1 + 1 * 0 = 0; omega
  | ⟨1, _⟩ => show win0_7.index t (1 : Fin 2) * 1024 + 1 * k.val = k.val; omega

theorem b8_apply (c : Dev nD) (t : Fin cfg0.N) (k : Fin 1024) :
    b8 m c t (ix2 (0 : Fin 1) k) = a8 m c (ix1 k) := by
  obtain ⟨-, -, -, -, -, -, -, -, -, -, e0, e1⟩ := idx_whole t
  show iblk m c 8 t (ix2 (0 : Fin 1) k) = _
  unfold iblk
  rw [View.read_apply]
  show V m c main_v5 _ = _
  rw [V_cb]
  refine Eq.trans (congrArg _ (funext fun a => Fin.ext ?_)) (shapeCast_a_1a_apply (m ((c : Thread nD τ).loc main_arg8)) _ (0 : Fin 1) k)
  match a with
  | ⟨0, _⟩ => show win0_8.index t (0 : Fin 2) * 1 + 1 * 0 = 0; omega
  | ⟨1, _⟩ => show win0_8.index t (1 : Fin 2) * 1024 + 1 * k.val = k.val; omega

/-! ## What each point writes back -/

/-- Point `t` writes back rows `128 t …` of the new cell array. -/
theorem flushed_cell (c : Dev nD) (t : Fin cfg0.N) :
    (dats m 0 c).flushed 10 t = ((cfg0.win 10).blk t).view.read (Elt Ideal)
      (cellArr (a0 m c) (a1 m c) (a2 m c) (a3 m c) (a4 m c) (a5 m c) (a6 m c)) := by
  rw [flushed10]
  unfold out0_10
  rw [View.canon_unit_zero hz]
  simp only [View.ld_unit_zero (S := S128x512) hz, View.ld_unit_zero (S := S128x1024) hz, View.ld_unit_zero (S := S4096x512) hz,
    View.ld_unit_zero (S := S4096x1024) hz, View.ld_unit_zero (S := S1x4096) hz, View.ld_unit_zero (S := S1x1024) hz]
  refine funext fun (j : S128x1024.Idx) => ?_
  obtain ⟨p, q, rfl⟩ : ∃ (p : Fin 128) (q : Fin 1024), j = ix2 p q := ⟨j 0, j 1, eq_ix2 j⟩
  obtain ⟨-, -, -, -, -, -, -, -, e0, e1⟩ := idx_moving t
  have hemb : ((cfg0.win 10).blk t).view.emb (ix2 p q) = ix2 (rowOf t p) q := funext fun a => Fin.ext (by
    match a with
    | ⟨0, _⟩ => show win0_10.index t (0 : Fin 2) * 128 + 1 * p.val = t.val * 128 + p.val; omega
    | ⟨1, _⟩ => show win0_10.index t (1 : Fin 2) * 1024 + 1 * q.val = q.val; omega)
  show cellVal (b0 m c t) (b1 m c t) (b2 m c t) (b3 m c t) (b4 m c t) (b5 m c t) (b6 m c t) (ix2 p q)
    = cellArr (a0 m c) (a1 m c) (a2 m c) (a3 m c) (a4 m c) (a5 m c) (a6 m c) (((cfg0.win 10).blk t).view.emb (ix2 p q))
  rw [hemb, cellArr_apply, cellVal_apply]
  unfold cellAt
  simp only [b0_apply, b1_apply, b2_apply, b3_apply, b4_apply, b5_apply, b6_apply]

/-- Point `t` writes back rows `128 t …` of the new hidden array. -/
theorem flushed_hidden (c : Dev nD) (t : Fin cfg0.N) :
    (dats m 0 c).flushed 9 t = ((cfg0.win 9).blk t).view.read (Elt Ideal)
      (hiddenArr (a0 m c) (a1 m c) (a2 m c) (a3 m c) (a4 m c) (a5 m c) (a6 m c) (a7 m c) (a8 m c)) := by
  rw [flushed9]
  unfold out0_9
  rw [View.canon_unit_zero hz]
  simp only [View.ld_unit_zero (S := S128x512) hz, View.ld_unit_zero (S := S128x1024) hz, View.ld_unit_zero (S := S4096x512) hz,
    View.ld_unit_zero (S := S4096x1024) hz, View.ld_unit_zero (S := S1x4096) hz, View.ld_unit_zero (S := S1x1024) hz]
  refine funext fun (j : S128x1024.Idx) => ?_
  obtain ⟨p, q, rfl⟩ : ∃ (p : Fin 128) (q : Fin 1024), j = ix2 p q := ⟨j 0, j 1, eq_ix2 j⟩
  obtain ⟨-, -, -, -, -, -, e0, e1, -⟩ := idx_moving t
  have hemb : ((cfg0.win 9).blk t).view.emb (ix2 p q) = ix2 (rowOf t p) q := funext fun a => Fin.ext (by
    match a with
    | ⟨0, _⟩ => show win0_9.index t (0 : Fin 2) * 128 + 1 * p.val = t.val * 128 + p.val; omega
    | ⟨1, _⟩ => show win0_9.index t (1 : Fin 2) * 1024 + 1 * q.val = q.val; omega)
  show hiddenVal (b0 m c t) (b1 m c t) (b2 m c t) (b3 m c t) (b4 m c t) (b5 m c t) (b6 m c t) (b7 m c t) (b8 m c t) (ix2 p q)
    = hiddenArr (a0 m c) (a1 m c) (a2 m c) (a3 m c) (a4 m c) (a5 m c) (a6 m c) (a7 m c) (a8 m c)
        (((cfg0.win 9).blk t).view.emb (ix2 p q))
  rw [hemb, hiddenArr_apply, hiddenVal_apply]
  unfold hiddenAt
  simp only [b0_apply, b1_apply, b2_apply, b3_apply, b4_apply, b5_apply, b6_apply, b7_apply, b8_apply]

/-! ## The blocks cover both arrays -/

/-- An index of the cell array is in point `t`'s block iff each coordinate is in the block's range on its axis. -/
theorem mem_blk_cell (t : Fin cfg0.N) (i : S4096x1024.Idx) :
    i ∈ ((cfg0.win 10).blk t).view.set ↔ ∀ a : Fin 2, win0_10.index t a * S128x1024.size a ≤ (i a).val
      ∧ (i a).val < win0_10.index t a * S128x1024.size a + S128x1024.size a := by
  show i ∈ ((View.whole main_v6_1).slice (win0_10.rect t)).set ↔ _
  rw [View.set_slice_whole, Rect.mem_set_unit]
  exact Iff.rfl

theorem mem_blk_hidden (t : Fin cfg0.N) (i : S4096x1024.Idx) :
    i ∈ ((cfg0.win 9).blk t).view.set ↔ ∀ a : Fin 2, win0_9.index t a * S128x1024.size a ≤ (i a).val
      ∧ (i a).val < win0_9.index t a * S128x1024.size a + S128x1024.size a := by
  show i ∈ ((View.whole main_v6_0).slice (win0_9.rect t)).set ↔ _
  rw [View.set_slice_whole, Rect.mem_set_unit]
  exact Iff.rfl

/-- Row `r` lies in the block of point `r / 128`. -/
theorem cover_cell (i : S4096x1024.Idx) :
    ∃ t : Fin cfg0.N, (cfg0.win 10).flush t = true ∧ i ∈ ((cfg0.win 10).blk t).view.set := by
  have hi0 : (i 0).val < 4096 := (i 0).isLt
  have hi1 : (i 1).val < 1024 := (i 1).isLt
  have hN : cfg0.N = 32 := N_0
  have ht : (i 0).val / 128 < cfg0.N := by omega
  obtain ⟨-, -, -, -, -, -, -, -, e0, e1⟩ := idx_moving ⟨(i 0).val / 128, ht⟩
  refine ⟨⟨(i 0).val / 128, ht⟩, flush0_10 _, ?_⟩
  rw [mem_blk_cell]
  intro a
  match a with
  | ⟨0, _⟩ =>
    show win0_10.index ⟨(i 0).val / 128, ht⟩ (0 : Fin 2) * 128 ≤ (i 0).val
      ∧ (i 0).val < win0_10.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_10.index ⟨(i 0).val / 128, ht⟩ (1 : Fin 2) * 1024 ≤ (i 1).val
      ∧ (i 1).val < win0_10.index ⟨(i 0).val / 128, ht⟩ (1 : Fin 2) * 1024 + 1024
    rw [e1]; omega

theorem cover_hidden (i : S4096x1024.Idx) :
    ∃ t : Fin cfg0.N, (cfg0.win 9).flush t = true ∧ i ∈ ((cfg0.win 9).blk t).view.set := by
  have hi0 : (i 0).val < 4096 := (i 0).isLt
  have hi1 : (i 1).val < 1024 := (i 1).isLt
  have hN : cfg0.N = 32 := N_0
  have ht : (i 0).val / 128 < cfg0.N := by omega
  obtain ⟨-, -, -, -, -, -, e0, e1, -⟩ := idx_moving ⟨(i 0).val / 128, ht⟩
  refine ⟨⟨(i 0).val / 128, ht⟩, flush0_9 _, ?_⟩
  rw [mem_blk_hidden]
  intro a
  match a with
  | ⟨0, _⟩ =>
    show win0_9.index ⟨(i 0).val / 128, ht⟩ (0 : Fin 2) * 128 ≤ (i 0).val
      ∧ (i 0).val < win0_9.index ⟨(i 0).val / 128, ht⟩ (0 : Fin 2) * 128 + 128
    rw [e0]; show (i 0).val / 128 * 128 ≤ (i 0).val ∧ (i 0).val < (i 0).val / 128 * 128 + 128; omega
  | ⟨1, _⟩ =>
    show win0_9.index ⟨(i 0).val / 128, ht⟩ (1 : Fin 2) * 1024 ≤ (i 1).val
      ∧ (i 1).val < win0_9.index ⟨(i 0).val / 128, ht⟩ (1 : Fin 2) * 1024 + 1024
    rw [e1]; omega

/-! ## The two arrays after the run, and the run -/

theorem final_cell (c : Dev nD) :
    (dats m 0 c).arrAt 10 cfg0.N = cellArr (a0 m c) (a1 m c) (a2 m c) (a3 m c) (a4 m c) (a5 m c) (a6 m c) :=
  (dats m 0 c).arrAt_eq_of_cover 10 _ (fun t _ => flushed_cell m c t) cover_cell

theorem final_hidden (c : Dev nD) :
    (dats m 0 c).arrAt 9 cfg0.N
      = hiddenArr (a0 m c) (a1 m c) (a2 m c) (a3 m c) (a4 m c) (a5 m c) (a6 m c) (a7 m c) (a8 m c) :=
  (dats m 0 c).arrAt_eq_of_cover 9 _ (fun t _ => flushed_hidden m c t) cover_hidden

/-- Every weakly fair execution of the kernel's program ends with the hidden output at `hiddenArr` and the cell output at
    `cellArr` of the nine argument arrays, which end unchanged. -/
theorem run : θ_run defs (onTc (τ := τ) (main (F := Ideal))) ⟨m, fun _ => 0, ρ⟩ fun r => ∀ c : Dev nD,
      r.2.mem ((c : Thread nD τ).loc main_v6_0)
        = hiddenArr (a0 m c) (a1 m c) (a2 m c) (a3 m c) (a4 m c) (a5 m c) (a6 m c) (a7 m c) (a8 m c)
      ∧ r.2.mem ((c : Thread nD τ).loc main_v6_1) = cellArr (a0 m c) (a1 m c) (a2 m c) (a3 m c) (a4 m c) (a5 m c) (a6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final_hidden m c), (h c).2.1.trans (final_cell m c), (h c).2.2⟩)
    (run_blocks m ρ)

end Cert.KernelArray

end
-- ==== Proof.RefCell.lean ====
/-
  The reference program's two results, read entry by entry.

  Entry `(r, q)` of the reference's new cell array is `CellSpec.cNew` of batch row `r` at `q`, and entry `(r, q)` of its new
  hidden array is `CellSpec.hNew` of batch row `r` at `q`. The reading goes through the program in its own order: the
  pre-activations (two matrix products, added), their split into four gates of 1024 columns, each gate's mean, variance
  and normalised entries, the scale and shift per column, the four slices, the three logistic gates and the tanh gate, the
  new cell entry; then the new cell row's mean, variance and normalised entries, its scale and shift, and the new hidden
  entry.
-/
import proofs.«123228_j14980845928861_1_alg».proof.Proof.RefRead
import proofs.«123228_j14980845928861_1_alg».proof.Proof.CellArrays
import Idealize.ShloMosaic.Lib.ValueIdx
import Idealize.ShloMosaic.PureOps.Ideal.Laws

noncomputable section

open scoped BigOperators

namespace Cert.RefCell

open Cert.ReferenceIdeal Cert.ReferenceIdeal.Read Cert.CellArrays Cert.CellSpec Idealize.ShloMosaic Idealize.ShloMosaic.ValueIdx

section cell

variable (x0 : (⟨S4096x512, .f32⟩ : BufTy).Contents (Elt Ideal)) (x1 x2 : (⟨S4096x1024, .f32⟩ : BufTy).Contents (Elt Ideal))
  (x3 : (⟨S4096x512, .f32⟩ : BufTy).Contents (Elt Ideal)) (x4 : (⟨S4096x1024, .f32⟩ : BufTy).Contents (Elt Ideal))
  (x5 x6 : (⟨S4096, .f32⟩ : BufTy).Contents (Elt Ideal)) (x7 x8 : (⟨S1024, .f32⟩ : BufTy).Contents (Elt Ideal))

/-! ## The pre-activations -/

/-- Pre-activation column `o` of batch row `r`. -/
abbrev linR (r o : Fin 4096) : EReal :=
  lin (fun k => x0 (ix2 r k)) (fun k => x1 (ix2 r k)) (fun o k => x3 (ix2 o k)) (fun o k => x4 (ix2 o k)) o

/-- The first product's left operand is read at row `r`, column `k`. -/
theorem lidx1 (r o : Fin 4096) (k : Fin 512) : lidx_main_v1 (ix2 r o) k = ix2 r k :=
  funext fun a => Fin.ext (by match a with | ⟨0, _⟩ => rfl | ⟨1, _⟩ => rfl)

/-- The first product's right operand, a transpose, is read at row `o`, column `k` of the weight matrix. -/
theorem ridx1 (r o : Fin 4096) (k : Fin 512) : idx_main_v0 (ridx_main_v1 (ix2 r o) k) = ix2 o k :=
  funext fun a => Fin.ext (by match a with | ⟨0, _⟩ => rfl | ⟨1, _⟩ => rfl)

/-- The second product's left operand is read at row `r`, column `k`. -/
theorem lidx3 (r o : Fin 4096) (k : Fin 1024) : lidx_main_v3 (ix2 r o) k = ix2 r k :=
  funext fun a => Fin.ext (by match a with | ⟨0, _⟩ => rfl | ⟨1, _⟩ => rfl)

/-- The second product's right operand, a transpose, is read at row `o`, column `k` of the weight matrix. -/
theorem ridx3 (r o : Fin 4096) (k : Fin 1024) : idx_main_v2 (ridx_main_v3 (ix2 r o) k) = ix2 o k :=
  funext fun a => Fin.ext (by match a with | ⟨0, _⟩ => rfl | ⟨1, _⟩ => rfl)

/-- The sum of the two products at `(r, o)` is pre-activation column `o` of batch row `r`. -/
theorem v4_at (r o : Fin 4096) : val_main_v4 (F := Ideal) x0 x1 x3 x4 (ix2 r o) = linR x0 x1 x3 x4 r o := by
  rw [val_main_v4_apply, val_main_v1_apply, val_main_v3_apply]
  simp only [val_main_v0_apply, val_main_v2_apply, lidx1, ridx1, lidx3, ridx3]
  rfl

/-! ## Four gates of 1024 columns -/

/-- Entry `(r, g, q)` of the three-axis view sits at `(r, 1024 g + q)` of the two-axis array. -/
theorem idx5 (r : Fin 4096) (g : Fin 4) (q : Fin 1024) : idx_main_v5 (ix3 r g q) = ix2 r (col g q) :=
  funext fun a => Fin.ext (by
    have hr := r.isLt; have hg := g.isLt; have hq := q.isLt
    match a with
    | ⟨0, _⟩ => show ((r.val * 4 + g.val) * 1024 + q.val) / 4096 = r.val; omega
    | ⟨1, _⟩ => show ((r.val * 4 + g.val) * 1024 + q.val) % 4096 = q.val + 1024 * g.val; omega)

/-- Gate `g`'s entry `q` of batch row `r`, before normalising. -/
theorem v5_at (r : Fin 4096) (g : Fin 4) (q : Fin 1024) :
    val_main_v5 (F := Ideal) x0 x1 x3 x4 (ix3 r g q) = linR x0 x1 x3 x4 r (col g q) := by
  rw [val_main_v5_apply, idx5, v4_at]

/-! ## A gate's mean -/

theorem idx6 (r : Fin 4096) (g : Fin 4) (k : Fin 1024) : idx_main_v6 (ix2 r g) k = ix3 r g k :=
  funext fun a => Fin.ext (by match a with | ⟨0, _⟩ => rfl | ⟨1, _⟩ => rfl | ⟨2, _⟩ => rfl)

theorem idx7 (r : Fin 4096) (g : Fin 4) (z : Fin 1) : idx_main_v7 (ix3 r g z) = ix2 r g :=
  funext fun a => Fin.ext (by match a with | ⟨0, _⟩ => rfl | ⟨1, _⟩ => rfl)

/-- The sum of a gate's 1024 entries; the sum starts from the word of zero. -/
theorem v6_at (r : Fin 4096) (g : Fin 4) :
    val_main_v6 (F := Ideal) x0 x1 x3 x4 (ix2 r g) = ∑ q : Fin 1024, linR x0 x1 x3 x4 r (col g q) := by
  rw [val_main_v6_apply, val_main_cst_apply]
  simp only [idx6, v5_at]
  exact (congrArg (· + _) Ideal.ofBits_zero_f32).trans (zero_add _)

/-- A gate's mean. -/
theorem v9_at (r : Fin 4096) (g : Fin 4) (z : Fin 1) :
    val_main_v9 (F := Ideal) x0 x1 x3 x4 (ix3 r g z) = mean fun q => linR x0 x1 x3 x4 r (col g q) := by
  rw [val_main_v9_apply, val_main_v7_apply, idx7, v6_at, val_main_v8_apply, val_main_cst_0_apply]
  rfl

/-! ## A gate's variance -/

theorem idx10 (r : Fin 4096) (g : Fin 4) (q : Fin 1024) : idx_main_v10 (ix3 r g q) = ix3 r g (0 : Fin 1) :=
  funext fun a => Fin.ext (by match a with | ⟨0, _⟩ => rfl | ⟨1, _⟩ => rfl | ⟨2, _⟩ => rfl)

/-- A gate's entry less the gate's mean. -/
theorem v11_at (r : Fin 4096) (g : Fin 4) (q : Fin 1024) :
    val_main_v11 (F := Ideal) x0 x1 x3 x4 (ix3 r g q) = centred (fun q' => linR x0 x1 x3 x4 r (col g q')) q := by
  rw [val_main_v11_apply, v5_at, val_main_v10_apply, idx10, v9_at]
  rfl

theorem idx13 (r : Fin 4096) (g : Fin 4) (k : Fin 1024) : idx_main_v13 (ix2 r g) k = ix3 r g k :=
  funext fun a => Fin.ext (by match a with | ⟨0, _⟩ => rfl | ⟨1, _⟩ => rfl | ⟨2, _⟩ => rfl)

theorem idx14 (r : Fin 4096) (g : Fin 4) (z : Fin 1) : idx_main_v14 (ix3 r g z) = ix2 r g :=
  funext fun a => Fin.ext (by match a with | ⟨0, _⟩ => rfl | ⟨1, _⟩ => rfl)

/-- The sum of a gate's squared differences from its mean. -/
theorem v13_at (r : Fin 4096) (g : Fin 4) :
    val_main_v13 (F := Ideal) x0 x1 x3 x4 (ix2 r g)
      = ∑ q : Fin 1024, centred (fun q' => linR x0 x1 x3 x4 r (col g q')) q * centred (fun q' => linR x0 x1 x3 x4 r (col g q')) q := by
  rw [val_main_v13_apply, val_main_cst_1_apply]
  simp only [idx13, val_main_v12_apply, v11_at]
  exact (congrArg (· + _) Ideal.ofBits_zero_f32).trans (zero_add _)

/-- A gate's variance. -/
theorem v16_at (r : Fin 4096) (g : Fin 4) (z : Fin 1) :
    val_main_v16 (F := Ideal) x0 x1 x3 x4 (ix3 r g z) = var fun q => linR x0 x1 x3 x4 r (col g q) := by
  rw [val_main_v16_apply, val_main_v14_apply, idx14, v13_at, val_main_v15_apply, val_main_cst_2_apply]
  rfl

/-! ## A gate, normalised -/

theorem idx17 (r : Fin 4096) (g : Fin 4) (q : Fin 1024) : idx_main_v17 (ix3 r g q) = ix3 r g (0 : Fin 1) :=
  funext fun a => Fin.ext (by match a with | ⟨0, _⟩ => rfl | ⟨1, _⟩ => rfl | ⟨2, _⟩ => rfl)

theorem idx22 (r : Fin 4096) (g : Fin 4) (q : Fin 1024) : idx_main_v22 (ix3 r g q) = ix3 r g (0 : Fin 1) :=
  funext fun a => Fin.ext (by match a with | ⟨0, _⟩ => rfl | ⟨1, _⟩ => rfl | ⟨2, _⟩ => rfl)

/-- A gate's entry less the mean, times the reciprocal square root of (the variance plus ε). -/
theorem v23_at (r : Fin 4096) (g : Fin 4) (q : Fin 1024) :
    val_main_v23 (F := Ideal) x0 x1 x3 x4 (ix3 r g q) = normed (fun q' => linR x0 x1 x3 x4 r (col g q')) q := by
  rw [val_main_v23_apply, val_main_v18_apply, v5_at, val_main_v17_apply, idx17, v9_at, val_main_v22_apply, idx22,
    val_main_v21_apply, val_main_v20_apply, v16_at, val_main_v19_apply, val_main_cst_3_apply]
  rfl

/-- Entry `(r, 1024 g + q)` of the two-axis array sits at `(r, g, q)` of the three-axis view. -/
theorem idx24 (r : Fin 4096) (g : Fin 4) (q : Fin 1024) : idx_main_v24 (ix2 r (col g q)) = ix3 r g q :=
  funext fun a => Fin.ext (by
    have hr := r.isLt; have hg := g.isLt; have hq := q.isLt
    match a with
    | ⟨0, _⟩ => show (r.val * 4096 + (q.val + 1024 * g.val)) / 4096 = r.val; omega
    | ⟨1, _⟩ => show (r.val * 4096 + (q.val + 1024 * g.val)) / 1024 % 4 = g.val; omega
    | ⟨2, _⟩ => show (r.val * 4096 + (q.val + 1024 * g.val)) % 1024 = q.val; omega)

/-- The normalised gates, back in 4096 columns. -/
theorem v24_at (r : Fin 4096) (g : Fin 4) (q : Fin 1024) :
    val_main_v24 (F := Ideal) x0 x1 x3 x4 (ix2 r (col g q)) = normed (fun q' => linR x0 x1 x3 x4 r (col g q')) q := by
  rw [val_main_v24_apply, idx24, v23_at]

/-! ## Scale and shift per column, and the four slices -/

/-- Gate `g`'s entry `q` of batch row `r`: normalised, scaled and shifted. -/
abbrev gateR (r : Fin 4096) (g : Fin 4) (q : Fin 1024) : EReal :=
  gate (fun k => x0 (ix2 r k)) (fun k => x1 (ix2 r k)) (fun o k => x3 (ix2 o k)) (fun o k => x4 (ix2 o k))
    (fun o => x5 (ix1 o)) (fun o => x6 (ix1 o)) g q

/-- A per-column vector spread over the batch is read at the column. -/
theorem idx26 (r o : Fin 4096) : idx_main_v25 (idx_main_v26 (ix2 r o)) = ix1 o :=
  funext fun a => Fin.ext (by match a with | ⟨0, _⟩ => rfl)

theorem idx29 (r o : Fin 4096) : idx_main_v28 (idx_main_v29 (ix2 r o)) = ix1 o :=
  funext fun a => Fin.ext (by match a with | ⟨0, _⟩ => rfl)

theorem v30_at (r : Fin 4096) (g : Fin 4) (q : Fin 1024) :
    val_main_v30 (F := Ideal) x0 x1 x3 x4 x5 x6 (ix2 r (col g q)) = gateR x0 x1 x3 x4 x5 x6 r g q := by
  rw [val_main_v30_apply, val_main_v27_apply, v24_at, val_main_v26_apply, val_main_v25_apply, idx26,
    val_main_v29_apply, val_main_v28_apply, idx29]
  rfl

theorem idx31 (r : Fin 4096) (q : Fin 1024) : idx_main_v31 (ix2 r q) = ix2 r (col 0 q) :=
  funext fun a => Fin.ext (by
    match a with
    | ⟨0, _⟩ => rfl
    | ⟨1, _⟩ => show q.val = q.val + 1024 * 0; omega)

theorem idx32 (r : Fin 4096) (q : Fin 1024) : idx_main_v32 (ix2 r q) = ix2 r (col 1 q) :=
  funext fun a => Fin.ext (by
    match a with
    | ⟨0, _⟩ => rfl
    | ⟨1, _⟩ => show 1024 + q.val = q.val + 1024 * 1; omega)

theorem idx33 (r : Fin 4096) (q : Fin 1024) : idx_main_v33 (ix2 r q) = ix2 r (col 2 q) :=
  funext fun a => Fin.ext (by
    match a with
    | ⟨0, _⟩ => rfl
    | ⟨1, _⟩ => show 2048 + q.val = q.val + 1024 * 2; omega)

theorem idx34 (r : Fin 4096) (q : Fin 1024) : idx_main_v34 (ix2 r q) = ix2 r (col 3 q) :=
  funext fun a => Fin.ext (by
    match a with
    | ⟨0, _⟩ => rfl
    | ⟨1, _⟩ => show 3072 + q.val = q.val + 1024 * 3; omega)

theorem v31_at (r : Fin 4096) (q : Fin 1024) :
    val_main_v31 (F := Ideal) x0 x1 x3 x4 x5 x6 (ix2 r q) = gateR x0 x1 x3 x4 x5 x6 r 0 q := by
  rw [val_main_v31_apply, idx31, v30_at]

theorem v32_at (r : Fin 4096) (q : Fin 1024) :
    val_main_v32 (F := Ideal) x0 x1 x3 x4 x5 x6 (ix2 r q) = gateR x0 x1 x3 x4 x5 x6 r 1 q := by
  rw [val_main_v32_apply, idx32, v30_at]

theorem v33_at (r : Fin 4096) (q : Fin 1024) :
    val_main_v33 (F := Ideal) x0 x1 x3 x4 x5 x6 (ix2 r q) = gateR x0 x1 x3 x4 x5 x6 r 2 q := by
  rw [val_main_v33_apply, idx33, v30_at]

theorem v34_at (r : Fin 4096) (q : Fin 1024) :
    val_main_v34 (F := Ideal) x0 x1 x3 x4 x5 x6 (ix2 r q) = gateR x0 x1 x3 x4 x5 x6 r 3 q := by
  rw [val_main_v34_apply, idx34, v30_at]

/-! ## The three logistic gates, the tanh gate, the new cell entry -/

/-- The input gate: one over (one plus the exponential of the negated entry) is the logistic function. -/
theorem v40_at (r : Fin 4096) (q : Fin 1024) :
    val_main_v40 (F := Ideal) x0 x1 x3 x4 x5 x6 (ix2 r q) = Ideal.logistic (gateR x0 x1 x3 x4 x5 x6 r 0 q) := by
  rw [val_main_v40_apply, val_main_v39_apply, val_main_cst_5_apply, val_main_v38_apply, val_main_v37_apply,
    val_main_cst_4_apply, val_main_v36_apply, val_main_v35_apply, v31_at, logistic_eq]
  rfl

/-- The forget gate, biased by one. -/
theorem v48_at (r : Fin 4096) (q : Fin 1024) :
    val_main_v48 (F := Ideal) x0 x1 x3 x4 x5 x6 (ix2 r q) = Ideal.logistic (gateR x0 x1 x3 x4 x5 x6 r 1 q + cOne) := by
  rw [val_main_v48_apply, val_main_v47_apply, val_main_cst_8_apply, val_main_v46_apply, val_main_v45_apply,
    val_main_cst_7_apply, val_main_v44_apply, val_main_v43_apply, val_main_v42_apply, v32_at, val_main_v41_apply,
    val_main_cst_6_apply, logistic_eq]
  rfl

/-- The output gate. -/
theorem v54_at (r : Fin 4096) (q : Fin 1024) :
    val_main_v54 (F := Ideal) x0 x1 x3 x4 x5 x6 (ix2 r q) = Ideal.logistic (gateR x0 x1 x3 x4 x5 x6 r 2 q) := by
  rw [val_main_v54_apply, val_main_v53_apply, val_main_cst_10_apply, val_main_v52_apply, val_main_v51_apply,
    val_main_cst_9_apply, val_main_v50_apply, val_main_v49_apply, v33_at, logistic_eq]
  rfl

/-- The candidate. -/
theorem v55_at (r : Fin 4096) (q : Fin 1024) :
    val_main_v55 (F := Ideal) x0 x1 x3 x4 x5 x6 (ix2 r q) = Ideal.tanh (gateR x0 x1 x3 x4 x5 x6 r 3 q) := by
  rw [val_main_v55_apply, v34_at]
  rfl

/-- The new cell entry of batch row `r` at `q`. -/
theorem v58_at (r : Fin 4096) (q : Fin 1024) :
    val_main_v58 (F := Ideal) x0 x1 x2 x3 x4 x5 x6 (ix2 r q) = cellAt x0 x1 x2 x3 x4 x5 x6 r q := by
  rw [val_main_v58_apply, val_main_v56_apply, val_main_v57_apply, v48_at, v40_at, v55_at]
  rfl

/-! ## The new cell row's mean -/

theorem idx59 (r : Fin 4096) (k : Fin 1024) : idx_main_v59 (ix1 r) k = ix2 r k :=
  funext fun a => Fin.ext (by match a with | ⟨0, _⟩ => rfl | ⟨1, _⟩ => rfl)

theorem idx60 (r : Fin 4096) (z : Fin 1) : idx_main_v60 (ix2 r z) = ix1 r :=
  funext fun a => Fin.ext (by match a with | ⟨0, _⟩ => rfl)

/-- The sum of the new cell row's 1024 entries; the sum starts from the word of zero. -/
theorem v59_at (r : Fin 4096) :
    val_main_v59 (F := Ideal) x0 x1 x2 x3 x4 x5 x6 (ix1 r) = ∑ q : Fin 1024, cellAt x0 x1 x2 x3 x4 x5 x6 r q := by
  rw [val_main_v59_apply, val_main_cst_11_apply]
  simp only [idx59, v58_at]
  exact (congrArg (· + _) Ideal.ofBits_zero_f32).trans (zero_add _)

/-- The new cell row's mean. -/
theorem v62_at (r : Fin 4096) (z : Fin 1) :
    val_main_v62 (F := Ideal) x0 x1 x2 x3 x4 x5 x6 (ix2 r z) = mean (cellAt x0 x1 x2 x3 x4 x5 x6 r) := by
  rw [val_main_v62_apply, val_main_v60_apply, idx60, v59_at, val_main_v61_apply, val_main_cst_12_apply]
  rfl

/-! ## The new cell row's variance -/

theorem idx63 (r : Fin 4096) (q : Fin 1024) : idx_main_v63 (ix2 r q) = ix2 r (0 : Fin 1) :=
  funext fun a => Fin.ext (by match a with | ⟨0, _⟩ => rfl | ⟨1, _⟩ => rfl)

/-- A new cell entry less the row's mean. -/
theorem v64_at (r : Fin 4096) (q : Fin 1024) :
    val_main_v64 (F := Ideal) x0 x1 x2 x3 x4 x5 x6 (ix2 r q) = centred (cellAt x0 x1 x2 x3 x4 x5 x6 r) q := by
  rw [val_main_v64_apply, v58_at, val_main_v63_apply, idx63, v62_at]
  rfl

theorem idx66 (r : Fin 4096) (k : Fin 1024) : idx_main_v66 (ix1 r) k = ix2 r k :=
  funext fun a => Fin.ext (by match a with | ⟨0, _⟩ => rfl | ⟨1, _⟩ => rfl)

theorem idx67 (r : Fin 4096) (z : Fin 1) : idx_main_v67 (ix2 r z) = ix1 r :=
  funext fun a => Fin.ext (by match a with | ⟨0, _⟩ => rfl)

/-- The sum of the new cell row's squared differences from its mean. -/
theorem v66_at (r : Fin 4096) :
    val_main_v66 (F := Ideal) x0 x1 x2 x3 x4 x5 x6 (ix1 r)
      = ∑ q : Fin 1024, centred (cellAt x0 x1 x2 x3 x4 x5 x6 r) q * centred (cellAt x0 x1 x2 x3 x4 x5 x6 r) q := by
  rw [val_main_v66_apply, val_main_cst_13_apply]
  simp only [idx66, val_main_v65_apply, v64_at]
  exact (congrArg (· + _) Ideal.ofBits_zero_f32).trans (zero_add _)

/-- The new cell row's variance. -/
theorem v69_at (r : Fin 4096) (z : Fin 1) :
    val_main_v69 (F := Ideal) x0 x1 x2 x3 x4 x5 x6 (ix2 r z) = var (cellAt x0 x1 x2 x3 x4 x5 x6 r) := by
  rw [val_main_v69_apply, val_main_v67_apply, idx67, v66_at, val_main_v68_apply, val_main_cst_14_apply]
  rfl

/-! ## The new cell row normalised, scaled and shifted; the new hidden entry -/

theorem idx70 (r : Fin 4096) (q : Fin 1024) : idx_main_v70 (ix2 r q) = ix2 r (0 : Fin 1) :=
  funext fun a => Fin.ext (by match a with | ⟨0, _⟩ => rfl | ⟨1, _⟩ => rfl)

theorem idx75 (r : Fin 4096) (q : Fin 1024) : idx_main_v75 (ix2 r q) = ix2 r (0 : Fin 1) :=
  funext fun a => Fin.ext (by match a with | ⟨0, _⟩ => rfl | ⟨1, _⟩ => rfl)

/-- A new cell entry less the mean, times the reciprocal square root of (the variance plus ε). -/
theorem v76_at (r : Fin 4096) (q : Fin 1024) :
    val_main_v76 (F := Ideal) x0 x1 x2 x3 x4 x5 x6 (ix2 r q) = normed (cellAt x0 x1 x2 x3 x4 x5 x6 r) q := by
  rw [val_main_v76_apply, val_main_v71_apply, v58_at, val_main_v70_apply, idx70, v62_at, val_main_v75_apply, idx75,
    val_main_v74_apply, val_main_v73_apply, v69_at, val_main_v72_apply, val_main_cst_15_apply]
  rfl

/-- A per-entry vector spread over the batch is read at the entry. -/
theorem idx78 (r : Fin 4096) (q : Fin 1024) : idx_main_v77 (idx_main_v78 (ix2 r q)) = ix1 q :=
  funext fun a => Fin.ext (by match a with | ⟨0, _⟩ => rfl)

theorem idx81 (r : Fin 4096) (q : Fin 1024) : idx_main_v80 (idx_main_v81 (ix2 r q)) = ix1 q :=
  funext fun a => Fin.ext (by match a with | ⟨0, _⟩ => rfl)

/-- The new hidden entry of batch row `r` at `q`. -/
theorem v84_at (r : Fin 4096) (q : Fin 1024) :
    val_main_v84 (F := Ideal) x0 x1 x2 x3 x4 x5 x6 x7 x8 (ix2 r q) = hiddenAt x0 x1 x2 x3 x4 x5 x6 x7 x8 r q := by
  rw [val_main_v84_apply, v54_at, val_main_v83_apply, val_main_v82_apply, val_main_v79_apply, v76_at,
    val_main_v78_apply, val_main_v77_apply, idx78, val_main_v81_apply, val_main_v80_apply, idx81]
  rfl

end cell

/-! ## The two result arrays -/

open Cert.ReferenceIdeal Cert.ReferenceIdeal.Read Cert.CellArrays Idealize.ShloMosaic

/-- The reference's new cell array is the cell array of the specification. -/
theorem cell_eq (x0 : (⟨S4096x512, .f32⟩ : BufTy).Contents (Elt Ideal)) (x1 x2 : (⟨S4096x1024, .f32⟩ : BufTy).Contents (Elt Ideal))
    (x3 : (⟨S4096x512, .f32⟩ : BufTy).Contents (Elt Ideal)) (x4 : (⟨S4096x1024, .f32⟩ : BufTy).Contents (Elt Ideal))
    (x5 x6 : (⟨S4096, .f32⟩ : BufTy).Contents (Elt Ideal)) :
    val_main_v58 (F := Ideal) x0 x1 x2 x3 x4 x5 x6 = cellArr x0 x1 x2 x3 x4 x5 x6 := by
  funext i
  obtain ⟨r, q, rfl⟩ : ∃ (r : Fin 4096) (q : Fin 1024), i = ValueIdx.ix2 r q := ⟨i 0, i 1, ValueIdx.eq_ix2 i⟩
  rw [cellArr_apply]
  exact v58_at x0 x1 x2 x3 x4 x5 x6 r q

/-- The reference's new hidden array is the hidden array of the specification. -/
theorem hidden_eq (x0 : (⟨S4096x512, .f32⟩ : BufTy).Contents (Elt Ideal)) (x1 x2 : (⟨S4096x1024, .f32⟩ : BufTy).Contents (Elt Ideal))
    (x3 : (⟨S4096x512, .f32⟩ : BufTy).Contents (Elt Ideal)) (x4 : (⟨S4096x1024, .f32⟩ : BufTy).Contents (Elt Ideal))
    (x5 x6 : (⟨S4096, .f32⟩ : BufTy).Contents (Elt Ideal)) (x7 x8 : (⟨S1024, .f32⟩ : BufTy).Contents (Elt Ideal)) :
    val_main_v84 (F := Ideal) x0 x1 x2 x3 x4 x5 x6 x7 x8 = hiddenArr x0 x1 x2 x3 x4 x5 x6 x7 x8 := by
  funext i
  obtain ⟨r, q, rfl⟩ : ∃ (r : Fin 4096) (q : Fin 1024), i = ValueIdx.ix2 r q := ⟨i 0, i 1, ValueIdx.eq_ix2 i⟩
  rw [hiddenArr_apply]
  exact v84_at x0 x1 x2 x3 x4 x5 x6 x7 x8 r q

end Cert.RefCell

end
-- ==== Proof.lean ====
/-
  One step of a layer-normalised LSTM cell over a batch of 4096 rows: a fused kernel against its plain reference.

  Both programs take an input array `x` (4096 × 512), a hidden array `h` and a cell array `c` (4096 × 1024), two weight
  matrices (4096 × 512 and 4096 × 1024), a scale and a shift for the 4096 gate pre-activations and a scale and a shift
  for the 1024 cell entries, and return the new hidden and the new cell arrays.

  Row by row both compute the same function (`CellSpec.cNew`, `CellSpec.hNew`): the pre-activations
  `x · Wihᵀ + h · Whhᵀ`; each of the four gates of 1024 columns less its mean, times the reciprocal square root of (its
  variance plus ε), scaled and shifted; three logistic gates (the second biased by one) and a tanh candidate;
  `c' = f · c + i · g`; `h' = o · tanh` of `c'` normalised, scaled and shifted.

  The kernel works on 32 blocks of 128 rows. It narrows its matrix operands to a shorter float format (the identity on
  the extended reals), forms both products against the transposed weights in one contraction each, cuts the gates out
  as column slices and calls the logistic function by name; the reference transposes the weights, reshapes the
  pre-activations to 4096 × 4 × 1024 to normalise all gates at once, and spells the logistic function out as
  `1 / (1 + e^(-x))`. On the extended reals the two agree entry by entry with no appeal to finiteness: every sum runs over
  the same index set in both, and the logistic function is its expansion by definition.

  `KernelRow` reads the kernel's stored values at an index of a block, `KernelArray` carries the 32 blocks to the whole
  arrays (`CellArrays.cellArr`, `CellArrays.hiddenArr` of the arguments), `RefCell` reads the reference's two results as
  the same two functions, and the claims below set the two runs side by side.
-/
import proofs.«123228_j14980845928861_1_alg».proof.Defs
import proofs.«123228_j14980845928861_1_alg».proof.Proof.Gen.Kernel
import proofs.«123228_j14980845928861_1_alg».proof.Proof.Gen.Kernel.Skeleton
import proofs.«123228_j14980845928861_1_alg».proof.Proof.Gen.Kernel.Launch
import proofs.«123228_j14980845928861_1_alg».proof.Proof.Gen.Kernel.Points
import proofs.«123228_j14980845928861_1_alg».proof.Proof.Gen.Kernel.Frame
import proofs.«123228_j14980845928861_1_alg».proof.Proof.Gen.KernelIdeal
import proofs.«123228_j14980845928861_1_alg».proof.Proof.Gen.KernelIdeal.Skeleton
import proofs.«123228_j14980845928861_1_alg».proof.Proof.Gen.KernelIdeal.Launch
import proofs.«123228_j14980845928861_1_alg».proof.Proof.Gen.KernelIdeal.Points
import proofs.«123228_j14980845928861_1_alg».proof.Proof.Gen.KernelIdeal.Frame
import proofs.«123228_j14980845928861_1_alg».proof.Proof.Gen.ReferenceIdeal
import proofs.«123228_j14980845928861_1_alg».proof.Proof.Gen.Pre_finite_inputs
import proofs.«123228_j14980845928861_1_alg».proof.Proof.KernelBlocks
import proofs.«123228_j14980845928861_1_alg».proof.Proof.RefRun
import proofs.«123228_j14980845928861_1_alg».proof.Proof.RefRead
import proofs.«123228_j14980845928861_1_alg».proof.Proof.KernelArray
import proofs.«123228_j14980845928861_1_alg».proof.Proof.RefCell
import Idealize.ShloMosaic.Adequacy
import Idealize.ShloMosaic.Init

noncomputable section

namespace Cert.Proof

open Idealize.ShloMosaic Idealize.SL.Sem Cert.CellArrays

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the nine arguments the kernel ends with its two outputs at `hiddenArr` and `cellArr` of
    the arguments (`KernelArray.run`), and the reference with its two results at the same two functions of its own
    arguments (`RefCell.hidden_eq`, `RefCell.cell_eq` over its run), which are the kernel's. -/
theorem algebraic : Cert.algebraic_KernelIdeal_ReferenceIdeal := by
  intro m ρ m' ρ' _ hagree
  refine ⟨fun c => hiddenArr (Cert.KernelArray.a0 m c) (Cert.KernelArray.a1 m c) (Cert.KernelArray.a2 m c) (Cert.KernelArray.a3 m c)
      (Cert.KernelArray.a4 m c) (Cert.KernelArray.a5 m c) (Cert.KernelArray.a6 m c) (Cert.KernelArray.a7 m c) (Cert.KernelArray.a8 m c),
    fun c => cellArr (Cert.KernelArray.a0 m c) (Cert.KernelArray.a1 m c) (Cert.KernelArray.a2 m c) (Cert.KernelArray.a3 m c)
      (Cert.KernelArray.a4 m c) (Cert.KernelArray.a5 m c) (Cert.KernelArray.a6 m c),
    Cert.KernelArray.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8⟩ := hagree c
    rw [Cert.ReferenceIdeal.Read.val_main_v84_eq, Cert.RefCell.hidden_eq, h0, h1, h2, h3, h4, h5, h6, h7, h8]
  · obtain ⟨h0, h1, h2, h3, h4, h5, h6, -, -⟩ := hagree c
    rw [Cert.ReferenceIdeal.Read.val_main_v58_eq, Cert.RefCell.cell_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
